-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S1000000x8 : Shape := ⟨2, ![1000000, 8]⟩
abbrev S8x256x64 : Shape := ⟨3, ![8, 256, 64]⟩
abbrev S_ : Shape := ⟨0, ![]⟩
abbrev S8x1x64 : Shape := ⟨3, ![8, 1, 64]⟩
abbrev S8x64 : Shape := ⟨2, ![8, 64]⟩

class Facts : Prop where
  bcast_S_S8x256x64 : S_.BroadcastsInDim S8x256x64 (![] : Fin 0 → Fin S8x256x64.rank)
  reducesTo_S8x256x64_S_d0_1_2 : S8x256x64.ReducesTo [0, 1, 2] S_
  h_S_ : 0 < S_.numel
  slices_S8x256x64_S8x1x64_0_0_0 : S8x256x64.Slices ![0, 0, 0] S8x1x64
  shapeCasts_S8x1x64_S8x64 : S8x1x64.ShapeCasts S8x64
  bcast_S_S8x64 : S_.BroadcastsInDim S8x64 (![] : Fin 0 → Fin S8x64.rank)
  reducesTo_S8x64_S_d0_1 : S8x64.ReducesTo [0, 1] S_
  bcast_S_S1000000x8 : S_.BroadcastsInDim S1000000x8 (![] : Fin 0 → Fin S1000000x8.rank)
  reducesTo_S1000000x8_S_d0_1 : S1000000x8.ReducesTo [0, 1] S_

variable [Facts]

def fn {F : FTy → Type} [FloatOps F] (main_arg0 : IVec S256x512 32) (main_arg1 : IVec S1000000x8 32) (main_arg2 : FVec F S8x256x64 .f32) : IVec S_ 1 :=
  let main_v0 : FVec F S8x256x64 .f32 := Host.absf main_arg2
  let main_cst : FVec F S_ .f32 := constant S_ .f32 0x7F800000#32
  let main_v1 : FVec F S8x256x64 .f32 := broadcastInDim S8x256x64 ![] bcast_S_S8x256x64 main_cst
  let main_v2 : IVec S8x256x64 1 := cmpf .olt main_v0 main_v1
  let main_c : IVec S_ 1 := constantI S_ 1 1#1
  let main_v3 : IVec S_ 1 := (fun x v => Host.reduce IntOp.andi x v reducesTo_S8x256x64_S_d0_1_2 h_S_) main_v2 main_c
  let main_v4 : FVec F S8x1x64 .f32 := (extractStridedSlice S8x1x64 ![0, 0, 0] · slices_S8x256x64_S8x1x64_0_0_0) main_arg2
  let main_v5 : FVec F S8x64 .f32 := shapeCast S8x64 main_v4 shapeCasts_S8x1x64_S8x64
  let main_cst_0 : FVec F S_ .f32 := constant S_ .f32 0x00000000#32
  let main_v6 : FVec F S8x64 .f32 := broadcastInDim S8x64 ![] bcast_S_S8x64 main_cst_0
  let main_v7 : IVec S8x64 1 := cmpf .oeq main_v5 main_v6
  let main_c_1 : IVec S_ 1 := constantI S_ 1 1#1
  let main_v8 : IVec S_ 1 := (fun x v => Host.reduce IntOp.andi x v reducesTo_S8x64_S_d0_1 h_S_) main_v7 main_c_1
  let main_v9 : IVec S_ 1 := andi main_v3 main_v8
  let main_c_2 : IVec S_ 32 := constantI S_ 32 0#32
  let main_v10 : IVec S1000000x8 32 := broadcastInDim S1000000x8 ![] bcast_S_S1000000x8 main_c_2
  let main_v11 : IVec S1000000x8 1 := cmpi .sge main_arg1 main_v10
  let main_c_3 : IVec S_ 1 := constantI S_ 1 1#1
  let main_v12 : IVec S_ 1 := (fun x v => Host.reduce IntOp.andi x v reducesTo_S1000000x8_S_d0_1 h_S_) main_v11 main_c_3
  let main_v13 : IVec S_ 1 := andi main_v9 main_v12
  main_v13
-- ==== Kernel.lean ====
abbrev S256x512 : Shape := ⟨2, ![256, 512]⟩
abbrev S1000000x8 : Shape := ⟨2, ![1000000, 8]⟩
abbrev S8x256x64 : Shape := ⟨3, ![8, 256, 64]⟩
abbrev S131072 : Shape := ⟨1, ![131072]⟩
abbrev S_ : Shape := ⟨0, ![]⟩
abbrev S131072x1 : Shape := ⟨2, ![131072, 1]⟩
abbrev S131072x8 : Shape := ⟨2, ![131072, 8]⟩
abbrev S1 : Shape := ⟨1, ![1]⟩
abbrev S8x64 : Shape := ⟨2, ![8, 64]⟩
abbrev S131072x512 : Shape := ⟨2, ![131072, 512]⟩
abbrev S4096x8 : Shape := ⟨2, ![4096, 8]⟩
abbrev S4096x512 : Shape := ⟨2, ![4096, 512]⟩
abbrev S4096x256 : Shape := ⟨2, ![4096, 256]⟩
abbrev S4096x1 : Shape := ⟨2, ![4096, 1]⟩
abbrev S1x256x64 : Shape := ⟨3, ![1, 256, 64]⟩
abbrev S256x64 : Shape := ⟨2, ![256, 64]⟩
abbrev S4096x64 : Shape := ⟨2, ![4096, 64]⟩
abbrev S4096x128 : Shape := ⟨2, ![4096, 128]⟩
abbrev S256x512x512 : Shape := ⟨3, ![256, 512, 512]⟩

abbrev nBuf : Space → Nat
  | .hbm => 33
  | .vmem => 5
  | .smem => 0
  | _ => 0

abbrev bufTy : (tb : Table) → Fin (tcTables nBuf tb) → BufTy
  | .hbm, ⟨0, _⟩ => ⟨S256x512, .i32⟩
  | .hbm, ⟨1, _⟩ => ⟨S1000000x8, .i32⟩
  | .hbm, ⟨2, _⟩ => ⟨S8x256x64, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x8, .i32⟩
  | .hbm, ⟨13, _⟩ => ⟨S_, .i32⟩
  | .hbm, ⟨14, _⟩ => ⟨S131072x8, .i32⟩
  | .hbm, ⟨15, _⟩ => ⟨S131072x8, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S131072x1, .i1⟩
  | .hbm, ⟨20, _⟩ => ⟨S_, .i32⟩
  | .hbm, ⟨21, _⟩ => ⟨S_, .i32⟩
  | .hbm, ⟨22, _⟩ => ⟨S131072x8, .i1⟩
  | .hbm, ⟨23, _⟩ => ⟨S131072x8, .i32⟩
  | .hbm, ⟨24, _⟩ => ⟨S131072x8, .i32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S8x64, .f32⟩
  | .hbm, ⟨29, _⟩ => ⟨S8x256x64, .f32⟩
  | .hbm, ⟨30, _⟩ => ⟨S8x256x64, .bf16⟩
  | .hbm, ⟨31, _⟩ => ⟨S131072x512, .f32⟩
  | .hbm, ⟨32, _⟩ => ⟨S256x512x512, .f32⟩
  | .local _ .vmem, ⟨0, _⟩ => ⟨S4096x8, .i32⟩
  | .local _ .vmem, ⟨1, _⟩ => ⟨S4096x8, .i32⟩
  | .local _ .vmem, ⟨2, _⟩ => ⟨S8x256x64, .bf16⟩
  | .local _ .vmem, ⟨3, _⟩ => ⟨S4096x512, .f32⟩
  | .local _ .vmem, ⟨4, _⟩ => ⟨S4096x512, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256x512_S131072 : S256x512.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x8 : S_.BroadcastsInDim S131072x8 (![] : Fin 0 → Fin S131072x8.rank)
  bcast_S131072x1_S131072x8_0_1 : S131072x1.BroadcastsInDim S131072x8 (![0, 1] : Fin 2 → Fin S131072x8.rank)
  bcast_S_S1 : S_.BroadcastsInDim S1 (![] : Fin 0 → Fin S1.rank)
  bcast_S_S8x64 : S_.BroadcastsInDim S8x64 (![] : Fin 0 → Fin S8x64.rank)
  bitsLt_bf16_f32 : FTy.bits .bf16 < FTy.bits .f32
  iota_S4096x256_d1_w32 : S4096x256.Iotas .tc 32 [1]
  inb_S4096x8_S4096x1_0_0 : ∀ a, (![0, 0] : Fin 2 → Nat) a + S4096x1.size a ≤ S4096x8.size a
  h_S4096x1 : 0 < S4096x1.numel
  shapeCasts_S4096x1_S4096x1 : S4096x1.ShapeCasts S4096x1
  inb_S4096x8_S4096x1_0_1 : ∀ a, (![0, 1] : Fin 2 → Nat) a + S4096x1.size a ≤ S4096x8.size a
  broadcasts_S4096x1_S4096x256 : S4096x1.Broadcasts S4096x256
  natLt_1_32 : 1 < 32
  inb_S8x256x64_S1x256x64_0_0_0 : ∀ a, (![0, 0, 0] : Fin 3 → Nat) a + S1x256x64.size a ≤ S8x256x64.size a
  h_S1x256x64 : 0 < S1x256x64.numel
  shapeCasts_S1x256x64_S256x64 : S1x256x64.ShapeCasts S256x64
  inb_S8x256x64_S1x256x64_1_0_0 : ∀ a, (![1, 0, 0] : Fin 3 → Nat) a + S1x256x64.size a ≤ S8x256x64.size a
  concatenates_S4096x64_S4096x64_S4096x128_d1 : Shape.Concatenates [S4096x64, S4096x64] S4096x128 1
  inb_S4096x512_S4096x128_0_0 : ∀ a, (![0, 0] : Fin 2 → Nat) a + S4096x128.size a ≤ S4096x512.size a
  h_S4096x128 : 0 < S4096x128.numel
  inb_S4096x8_S4096x1_0_2 : ∀ a, (![0, 2] : Fin 2 → Nat) a + S4096x1.size a ≤ S4096x8.size a
  inb_S4096x8_S4096x1_0_3 : ∀ a, (![0, 3] : Fin 2 → Nat) a + S4096x1.size a ≤ S4096x8.size a
  inb_S8x256x64_S1x256x64_2_0_0 : ∀ a, (![2, 0, 0] : Fin 3 → Nat) a + S1x256x64.size a ≤ S8x256x64.size a
  inb_S8x256x64_S1x256x64_3_0_0 : ∀ a, (![3, 0, 0] : Fin 3 → Nat) a + S1x256x64.size a ≤ S8x256x64.size a
  inb_S4096x512_S4096x128_0_128 : ∀ a, (![0, 128] : Fin 2 → Nat) a + S4096x128.size a ≤ S4096x512.size a
  inb_S4096x8_S4096x1_0_4 : ∀ a, (![0, 4] : Fin 2 → Nat) a + S4096x1.size a ≤ S4096x8.size a
  inb_S4096x8_S4096x1_0_5 : ∀ a, (![0, 5] : Fin 2 → Nat) a + S4096x1.size a ≤ S4096x8.size a
  inb_S8x256x64_S1x256x64_4_0_0 : ∀ a, (![4, 0, 0] : Fin 3 → Nat) a + S1x256x64.size a ≤ S8x256x64.size a
  inb_S8x256x64_S1x256x64_5_0_0 : ∀ a, (![5, 0, 0] : Fin 3 → Nat) a + S1x256x64.size a ≤ S8x256x64.size a
  inb_S4096x512_S4096x128_0_256 : ∀ a, (![0, 256] : Fin 2 → Nat) a + S4096x128.size a ≤ S4096x512.size a
  inb_S4096x8_S4096x1_0_6 : ∀ a, (![0, 6] : Fin 2 → Nat) a + S4096x1.size a ≤ S4096x8.size a
  inb_S4096x8_S4096x1_0_7 : ∀ a, (![0, 7] : Fin 2 → Nat) a + S4096x1.size a ≤ S4096x8.size a
  inb_S8x256x64_S1x256x64_6_0_0 : ∀ a, (![6, 0, 0] : Fin 3 → Nat) a + S1x256x64.size a ≤ S8x256x64.size a
  inb_S8x256x64_S1x256x64_7_0_0 : ∀ a, (![7, 0, 0] : Fin 3 → Nat) a + S1x256x64.size a ≤ S8x256x64.size a
  inb_S4096x512_S4096x128_0_384 : ∀ a, (![0, 384] : Fin 2 → Nat) a + S4096x128.size a ≤ S4096x512.size a
  shapeCasts_S131072x512_S256x512x512 : S131072x512.ShapeCasts S256x512x512
  gather_S1000000x8_S131072x1_S131072x8_1_0_n_n_0_1_18_wf : GatherDims.WF S1000000x8 S131072x1 S131072x8 [1] [0] [] [0] [] 1 ![1, 8]
  scatter_S8x256x64_S1_S8x64_01_1_1_0_wf : ScatterDims.WF S8x256x64 S1 S8x64 [0, 1] [1] [1] 0
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S131072x8.size a
  hwx0_0 : ∀ i : grid0.Coords, EltTy.bits .i32 = 32 ∨ (Rect.block (s := S131072x8) S4096x8.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x64.size a ≤ S8x256x64.size a
  hwx0_1 : ∀ i : grid0.Coords, EltTy.bits .bf16 = 32 ∨ (Rect.block (s := S8x256x64) S8x256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)

variable [Facts₀]

def gather_S1000000x8_S131072x1_S131072x8_1_0_n_n_0_1_18 : GatherDims S1000000x8 S131072x1 S131072x8 where
  offsetDims := [1]
  collapsedSliceDims := [0]
  operandBatchingDims := []
  startIndicesBatchingDims := []
  startIndexMap := [0]
  indexVectorDim := 1
  sliceSizes := ![1, 8]
  wf := gather_S1000000x8_S131072x1_S131072x8_1_0_n_n_0_1_18_wf
def scatter_S8x256x64_S1_S8x64_01_1_1_0 : ScatterDims S8x256x64 S1 S8x64 where
  updateWindowDims := [0, 1]
  insertedWindowDims := [1]
  scatterDimsToOperandDims := [1]
  indexVectorDim := 0
  wf := scatter_S8x256x64_S1_S8x64_01_1_1_0_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v13) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8x256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512 : Shape := ⟨2, ![256, 512]⟩
abbrev S1000000x8 : Shape := ⟨2, ![1000000, 8]⟩
abbrev S8x256x64 : Shape := ⟨3, ![8, 256, 64]⟩
abbrev S_ : Shape := ⟨0, ![]⟩
abbrev S256x512x1 : Shape := ⟨3, ![256, 512, 1]⟩
abbrev S256x512x8 : Shape := ⟨3, ![256, 512, 8]⟩
abbrev S8 : Shape := ⟨1, ![8]⟩
abbrev S1x1x8 : Shape := ⟨3, ![1, 1, 8]⟩
abbrev S256x512x8x1 : Shape := ⟨4, ![256, 512, 8, 1]⟩
abbrev S256x512x8x2 : Shape := ⟨4, ![256, 512, 8, 2]⟩
abbrev S256x512x8x64 : Shape := ⟨4, ![256, 512, 8, 64]⟩
abbrev S256x512x512 : Shape := ⟨3, ![256, 512, 512]⟩

abbrev nBuf : Space → Nat
  | .hbm => 46
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S1000000x8, .i32⟩
  | .hbm, ⟨2, _⟩ => ⟨S8x256x64, .f32⟩
  | .hbm, ⟨3, _⟩ => ⟨S_, .i32⟩
  | .hbm, ⟨4, _⟩ => ⟨S256x512, .i32⟩
  | .hbm, ⟨5, _⟩ => ⟨S256x512, .i1⟩
  | .hbm, ⟨6, _⟩ => ⟨S_, .i32⟩
  | .hbm, ⟨7, _⟩ => ⟨S256x512, .i32⟩
  | .hbm, ⟨8, _⟩ => ⟨S256x512, .i32⟩
  | .hbm, ⟨9, _⟩ => ⟨S256x512, .i32⟩
  | .hbm, ⟨10, _⟩ => ⟨S256x512x1, .i32⟩
  | .hbm, ⟨11, _⟩ => ⟨S256x512x8, .i32⟩
  | .hbm, ⟨12, _⟩ => ⟨S_, .i32⟩
  | .hbm, ⟨13, _⟩ => ⟨S256x512x8, .i32⟩
  | .hbm, ⟨14, _⟩ => ⟨S256x512x8, .i32⟩
  | .hbm, ⟨15, _⟩ => ⟨S8, .i32⟩
  | .hbm, ⟨16, _⟩ => ⟨S1x1x8, .i32⟩
  | .hbm, ⟨17, _⟩ => ⟨S_, .i32⟩
  | .hbm, ⟨18, _⟩ => ⟨S1x1x8, .i32⟩
  | .hbm, ⟨19, _⟩ => ⟨S1x1x8, .i1⟩
  | .hbm, ⟨20, _⟩ => ⟨S_, .i32⟩
  | .hbm, ⟨21, _⟩ => ⟨S1x1x8, .i32⟩
  | .hbm, ⟨22, _⟩ => ⟨S1x1x8, .i32⟩
  | .hbm, ⟨23, _⟩ => ⟨S1x1x8, .i32⟩
  | .hbm, ⟨24, _⟩ => ⟨S_, .i32⟩
  | .hbm, ⟨25, _⟩ => ⟨S256x512x8, .i32⟩
  | .hbm, ⟨26, _⟩ => ⟨S256x512x8, .i1⟩
  | .hbm, ⟨27, _⟩ => ⟨S_, .i32⟩
  | .hbm, ⟨28, _⟩ => ⟨S256x512x8, .i32⟩
  | .hbm, ⟨29, _⟩ => ⟨S256x512x8, .i32⟩
  | .hbm, ⟨30, _⟩ => ⟨S256x512x8, .i32⟩
  | .hbm, ⟨31, _⟩ => ⟨S256x512x8, .i32⟩
  | .hbm, ⟨32, _⟩ => ⟨S256x512x8x1, .i32⟩
  | .hbm, ⟨33, _⟩ => ⟨S256x512x8x1, .i32⟩
  | .hbm, ⟨34, _⟩ => ⟨S256x512x8x2, .i32⟩
  | .hbm, ⟨35, _⟩ => ⟨S256x512x8x64, .f32⟩
  | .hbm, ⟨36, _⟩ => ⟨S256x512x512, .f32⟩
  | .hbm, ⟨37, _⟩ => ⟨S_, .i32⟩
  | .hbm, ⟨38, _⟩ => ⟨S256x512, .i32⟩
  | .hbm, ⟨39, _⟩ => ⟨S256x512, .i1⟩
  | .hbm, ⟨40, _⟩ => ⟨S256x512x1, .i1⟩
  | .hbm, ⟨41, _⟩ => ⟨S_, .f32⟩
  | .hbm, ⟨42, _⟩ => ⟨S_, .f32⟩
  | .hbm, ⟨43, _⟩ => ⟨S256x512x512, .i1⟩
  | .hbm, ⟨44, _⟩ => ⟨S256x512x512, .f32⟩
  | .hbm, ⟨45, _⟩ => ⟨S256x512x512, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S_S256x512x8 : S_.BroadcastsInDim S256x512x8 (![] : Fin 0 → Fin S256x512x8.rank)
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S1x1x8_S256x512x8_0_1_2 : S1x1x8.BroadcastsInDim S256x512x8 (![0, 1, 2] : Fin 3 → Fin S256x512x8.rank)
  bcast_S256x512x8_S256x512x8x1_0_1_2 : S256x512x8.BroadcastsInDim S256x512x8x1 (![0, 1, 2] : Fin 3 → Fin S256x512x8x1.rank)
  concatenates_S256x512x8x1_S256x512x8x1_S256x512x8x2_d3 : Shape.Concatenates [S256x512x8x1, S256x512x8x1] S256x512x8x2 3
  shapeCasts_S256x512x8x64_S256x512x512 : S256x512x8x64.ShapeCasts S256x512x512
  bcast_S256x512x1_S256x512x512_0_1_2 : S256x512x1.BroadcastsInDim S256x512x512 (![0, 1, 2] : Fin 3 → Fin S256x512x512.rank)
  bcast_S_S256x512x512 : S_.BroadcastsInDim S256x512x512 (![] : Fin 0 → Fin S256x512x512.rank)
  gather_S1000000x8_S256x512x1_S256x512x8_2_0_n_n_0_2_18_wf : GatherDims.WF S1000000x8 S256x512x1 S256x512x8 [2] [0] [] [0] [] 2 ![1, 8]
  gather_S8x256x64_S256x512x8x2_S256x512x8x64_3_01_n_n_01_3_1164_wf : GatherDims.WF S8x256x64 S256x512x8x2 S256x512x8x64 [3] [0, 1] [] [0, 1] [] 3 ![1, 1, 64]

variable [Facts₀]

def gather_S1000000x8_S256x512x1_S256x512x8_2_0_n_n_0_2_18 : GatherDims S1000000x8 S256x512x1 S256x512x8 where
  offsetDims := [2]
  collapsedSliceDims := [0]
  operandBatchingDims := []
  startIndicesBatchingDims := []
  startIndexMap := [0]
  indexVectorDim := 2
  sliceSizes := ![1, 8]
  wf := gather_S1000000x8_S256x512x1_S256x512x8_2_0_n_n_0_2_18_wf
def gather_S8x256x64_S256x512x8x2_S256x512x8x64_3_01_n_n_01_3_1164 : GatherDims S8x256x64 S256x512x8x2 S256x512x8x64 where
  offsetDims := [3]
  collapsedSliceDims := [0, 1]
  operandBatchingDims := []
  startIndicesBatchingDims := []
  startIndexMap := [0, 1]
  indexVectorDim := 3
  sliceSizes := ![1, 1, 64]
  wf := gather_S8x256x64_S256x512x8x2_S256x512x8x64_3_01_n_n_01_3_1164_wf

class Facts : Prop extends Facts₀ where

variable [Facts]
-- ==== Proof.Spec.lean ====
import Idealize.ShloMosaic.PureOps.Ideal
import Idealize.ShloMosaic.Lib.ValueIdx

/-! # Decoding product-quantised tokens: what both programs compute

A token id names a row of an integer table (eight codes, one per subspace); code `k` of the row names a row of
subspace `k`'s centroid table (256 rows of 64 numbers); the token's embedding is the eight centroid rows side by
side (512 numbers), and the embedding of the padding token, id `0`, is zero.

Spelled out on words as both programs spell it: a negative id is wrapped once by the table's length and the result is
clamped into the table; a code is clamped above by 255; the centroid row read is the code, as a signed integer, clamped
into `[0, 255]`.

Two properties of the inputs are used: row `0` of every subspace's centroid table is zero, and no code in the table is
negative. Under them a code `0` decodes to zero whether one reads centroid row `0` or puts zero there outright, and a
code never needs wrapping. -/

noncomputable section

namespace Cert.PQ

open Idealize.ShloMosaic Idealize.ShloMosaic.ValueIdx

/-- Token ids: 256 sequences of 512 tokens. -/
abbrev SIds : Shape := ⟨2, ![256, 512]⟩
/-- The code table: a million items, eight codes each. -/
abbrev STbl : Shape := ⟨2, ![1000000, 8]⟩
/-- The centroids: eight subspaces, 256 centroids each, 64 numbers each. -/
abbrev SCent : Shape := ⟨3, ![8, 256, 64]⟩
/-- The embeddings: per token 512 numbers. -/
abbrev SOut : Shape := ⟨3, ![256, 512, 512]⟩

/-- A signed index word wrapped once by the axis length `n`: a negative word counts from the end. -/
def wrapWord (n v : BitVec 32) : BitVec 32 := Scalar.select (IntOp.cmpi .slt v 0#32) (IntOp.addi v n) v

/-- The table row a token id names: the id wrapped once by the table's length, then clamped into the table. -/
def rowOf (v : BitVec 32) : Fin 1000000 := ⟨min (wrapWord 1000000#32 v).toInt.toNat 999999, by omega⟩

/-- The code of subspace `k` for the token at `(b, s)`: the table's entry, clamped above by 255. -/
def codeAt (ids : IVec SIds 32) (tbl : IVec STbl 32) (b : Fin 256) (s : Fin 512) (k : Fin 8) : BitVec 32 :=
  IntOp.minsi (tbl (ix2 (rowOf (ids (ix2 b s))) k)) 255#32

/-- The subspace an embedding column belongs to. -/
def sub (e : Fin 512) : Fin 8 := ⟨e.val / 64, by omega⟩
/-- The position of an embedding column inside its subspace's 64. -/
def lane (e : Fin 512) : Fin 64 := ⟨e.val % 64, by omega⟩

/-- The centroid row a code names: the code as a signed integer clamped into `[0, 255]`. -/
def centRow (code : BitVec 32) : Fin 256 := ⟨min code.toInt.toNat 255, by omega⟩

/-- THE DECODED EMBEDDINGS: zero for the padding token, else column `e` of token `(b, s)` is entry `lane e` of the
    centroid row that the token's code for subspace `sub e` names. -/
def decode (ids : IVec SIds 32) (tbl : IVec STbl 32) (cent : SCent.Idx → EReal) : SOut.Idx → EReal := fun i =>
  if ids (ix2 (i 0) (i 1)) = 0#32 then 0
  else cent (ix3 (sub (i 2)) (centRow (codeAt ids tbl (i 0) (i 1) (sub (i 2)))) (lane (i 2)))

/-- Row `0` of every subspace's centroid table is zero. -/
def ZeroRow (cent : SCent.Idx → EReal) : Prop := ∀ (k : Fin 8) (d : Fin 64), cent (ix3 k (0 : Fin 256) d) = 0

/-- No code in the table is negative. -/
def CodesNonneg (tbl : IVec STbl 32) : Prop := ∀ (n : Fin 1000000) (k : Fin 8), 0 ≤ (tbl (ix2 n k)).toInt

/-- A code read off a table without negative entries lies in `[0, 255]`. -/
theorem codeAt_range {ids : IVec SIds 32} {tbl : IVec STbl 32} (hc : CodesNonneg tbl) (b : Fin 256) (s : Fin 512) (k : Fin 8) :
    0 ≤ (codeAt ids tbl b s k).toInt ∧ (codeAt ids tbl b s k).toInt ≤ 255 := by
  unfold codeAt IntOp.minsi
  have h := hc (rowOf (ids (ix2 b s))) k
  generalize tbl (ix2 (rowOf (ids (ix2 b s))) k) = v at h ⊢
  by_cases hlt : v.slt 255#32 = true
  · rw [if_pos hlt]
    rw [BitVec.slt_iff_toInt_lt] at hlt
    have : (255#32 : BitVec 32).toInt = 255 := by decide
    omega
  · rw [if_neg hlt]
    have : (255#32 : BitVec 32).toInt = 255 := by decide
    omega

end Cert.PQ

end
-- ==== Proof.PreDecode.lean ====
import proofs.«401532_j12575664243197_3_alg».proof.Proof.Gen.Pre_finite_inputs
import proofs.«401532_j12575664243197_3_alg».proof.Proof.Spec
import Idealize.ShloMosaic.PureOps.Ideal.Laws
import Idealize.ShloMosaic.Lib.ValueIdx
import Idealize.ShloMosaic.Lib.ReduceAll
import Idealize.ShloMosaic.Lib.StableHlo.Predicate
import Idealize.ShloMosaic.Lib.Pipeline.Value

/-! # The precondition, read

The precondition is the conjunction of three `all`-reductions: every centroid is finite, row `0` of every subspace's centroid
table equals zero, every code of the table is at least zero. The last two are read here entry by entry. -/

noncomputable section

namespace Cert.Pre_finite_inputs.Decode

open Idealize.ShloMosaic Idealize.ShloMosaic.ValueIdx Cert.Pre_finite_inputs Cert.Pre_finite_inputs.Gen

instance : Subsingleton S_.Idx := ⟨fun a b => funext fun d => d.elim0⟩

/-- An ordered-equal comparison of two ideal vectors that reads 1 at an index: the entries there are equal. -/
theorem eq_of_cmpf_oeq {s : Shape} (x y : FVec Ideal s .f32) (i : s.Idx) (h : cmpf .oeq x y i = 1#1) : x i = y i := by
  have h' : BitVec.ofBool (decide (x i = y i)) = 1#1 := h
  exact of_decide_eq_true ((StableHlo.Predicate.ofBool_eq_one_iff _).1 h')

/-- A signed greater-or-equal comparison of two word vectors that reads 1 at an index: the entries there are so ordered
    as signed integers. -/
theorem le_of_cmpi_sge {s : Shape} (x y : IVec s 32) (i : s.Idx) (h : cmpi .sge x y i = 1#1) : (y i).toInt ≤ (x i).toInt := by
  have h' : BitVec.ofBool ((y i).sle (x i)) = 1#1 := h
  exact BitVec.sle_iff_toInt_le.1 ((StableHlo.Predicate.ofBool_eq_one_iff _).1 h')

/-- Row 0 of the centroids, sliced out and reshaped to [8, 64], read at (k, d): the centroids' entry (k, 0, d). -/
theorem sliceRow0_apply (cent : FVec Ideal S8x256x64 .f32) (hs : S8x256x64.Slices ![0, 0, 0] S8x1x64) (hc : S8x1x64.ShapeCasts S8x64)
    (k : Fin 8) (d : Fin 64) :
    shapeCast S8x64 (extractStridedSlice S8x1x64 ![0, 0, 0] cent hs) hc (ix2 k d) = cent (ix3 k (0 : Fin 256) d) := by
  refine (shapeCast_apply _ hc (ix2 k d) (ix3 k (0 : Fin 1) d) ?_).trans ?_
  · rw [Shape.rowMajor_val_three, Shape.rowMajor_val_two]
    show (k.val * 1 + 0) * 64 + d.val = k.val * 64 + d.val
    omega
  · refine extractStridedSlice_apply _ cent hs (ix3 k (0 : Fin 1) d) (ix3 k (0 : Fin 256) d) fun a => ?_
    match a with
    | ⟨0, _⟩ => show k.val = 0 + k.val; omega
    | ⟨1, _⟩ => rfl
    | ⟨2, _⟩ => show d.val = 0 + d.val; omega

/-- Where the precondition holds, row `0` of every subspace's centroid table is zero: its second conjunct compares that row,
    sliced out and laid flat, with zero, entry by entry. -/
theorem zeroRow_of_pre (ids : IVec S256x512 32) (tbl : IVec S1000000x8 32) (cent : FVec Ideal S8x256x64 .f32)
    (h : Cert.Pre_finite_inputs.fn (F := Ideal) ids tbl cent = fun _ => 1#1) : Cert.PQ.ZeroRow cent := by
  have h0 := congrFun h ValueIdx.ix0
  dsimp only [Cert.Pre_finite_inputs.fn] at h0
  obtain ⟨hAB, -⟩ := IntOp.andi_eq_one.1 h0
  obtain ⟨-, hB⟩ := IntOp.andi_eq_one.1 hAB
  intro k d
  have hkd := eq_of_cmpf_oeq _ _ _ (Host.reduce_andi_all _ _ _ _ ix0 hB (ix2 k d))
  rw [sliceRow0_apply] at hkd
  exact hkd.trans Ideal.ofBits_zero_f32

/-- Where the precondition holds, no code in the table is negative: its third conjunct is the signed test `0 ≤ code` at every
    entry. -/
theorem codesNonneg_of_pre (ids : IVec S256x512 32) (tbl : IVec S1000000x8 32) (cent : FVec Ideal S8x256x64 .f32)
    (h : Cert.Pre_finite_inputs.fn (F := Ideal) ids tbl cent = fun _ => 1#1) : Cert.PQ.CodesNonneg tbl := by
  have h0 := congrFun h ValueIdx.ix0
  dsimp only [Cert.Pre_finite_inputs.fn] at h0
  obtain ⟨-, hC⟩ := IntOp.andi_eq_one.1 h0
  intro n k
  have hnk : (0#32 : BitVec 32).toInt ≤ (tbl (ix2 n k)).toInt :=
    le_of_cmpi_sge _ _ _ (Host.reduce_andi_all _ _ _ _ ix0 hC (ix2 n k))
  exact hnk

end Cert.Pre_finite_inputs.Decode

end
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibScatterSet.lean ====
import Idealize.ShloMosaic.PureOps.ShapeOps
import Idealize.ShloMosaic.Lib.ValueIdx

/-! # A scatter that SETS, read at one cell

`Host.scatter d (fun _ b => b) x idx upd` — the scatter whose combining function returns the update's element — is the left fold,
over the update indices in row-major order, of "put the update's element at the cell its index lands on, drop it when it lands
outside". Read at one cell `i`:

* if no update index lands on `i`, the result there is the operand's element (`scatter_set_miss`);
* if some update index lands on `i` and every update index landing on `i` carries the same value `v`, the result there is `v`
  (`scatter_set_hit`); in particular when exactly one update index lands on `i` (`scatter_set_unique`).

Both are proved for the fold over ANY list of update indices (`foldl_step_miss`, `foldl_step_hit`) and then used at the list of all of
them.

"Lands on" is `ScatterDims.resultIdx?`. For the two dimension numbers of a scatter along axis 0 at one index word per update — scalar
updates into a flat array (`setDims`), row updates into a matrix (`setRowDims`) — it is worked out once: update `k` lands on the cell
whose axis-0 coordinate is the index word `idx[k, 0]` read as a SIGNED integer, when that is inside the array, and nowhere otherwise
(`setDims_resultIdx?_eq_some_iff`, `setRowDims_resultIdx?_eq_some_iff`). -/

namespace Idealize.ShloMosaic.ScatterSet

open Idealize.ShloMosaic Idealize.ShloMosaic.ValueIdx

/-! ## The fold over any list of update indices -/

section Fold
variable {ι κ α : Type}

/-- No step of the list changes cell `i`: the fold leaves the cell as it was. -/
theorem foldl_step_miss (step : (ι → α) → κ → ι → α) (i : ι) (L : List κ) (x : ι → α)
    (h : ∀ r, ∀ n ∈ L, step r n i = r i) : (L.foldl step x) i = x i := by
  induction L generalizing x with
  | nil => rfl
  | cons n L ih =>
    rw [List.foldl_cons, ih _ (fun r m hm => h r m (List.mem_cons_of_mem _ hm))]
    exact h x n (List.mem_cons_self ..)

/-- The cell holds `v` and every step of the list leaves it or writes `v`: the cell holds `v` after the fold. -/
theorem foldl_step_keep (step : (ι → α) → κ → ι → α) (i : ι) (v : α) (L : List κ) (x : ι → α) (hx : x i = v)
    (h : ∀ r, ∀ n ∈ L, step r n i = r i ∨ step r n i = v) : (L.foldl step x) i = v := by
  induction L generalizing x with
  | nil => exact hx
  | cons n L ih =>
    rw [List.foldl_cons]
    refine ih _ ?_ (fun r m hm => h r m (List.mem_cons_of_mem _ hm))
    rcases h x n (List.mem_cons_self ..) with e | e
    · rw [e]; exact hx
    · exact e

/-- Some step of the list writes `v` at cell `i`, and every step of the list leaves the cell or writes `v`: the cell holds `v`
    after the fold. -/
theorem foldl_step_hit (step : (ι → α) → κ → ι → α) (i : ι) (v : α) (L : List κ) (x : ι → α) (n₀ : κ) (hn₀ : n₀ ∈ L)
    (h₀ : ∀ r, step r n₀ i = v) (h : ∀ r, ∀ n ∈ L, step r n i = r i ∨ step r n i = v) : (L.foldl step x) i = v := by
  induction L generalizing x with
  | nil => cases hn₀
  | cons n L ih =>
    rw [List.foldl_cons]
    rcases List.mem_cons.1 hn₀ with rfl | hmem
    · exact foldl_step_keep step i v L _ (h₀ x) (fun r m hm => h r m (List.mem_cons_of_mem _ hm))
    · exact ih _ hmem (fun r m hm => h r m (List.mem_cons_of_mem _ hm))

end Fold

/-! ## The scatter read at a cell -/

section Scatter
variable {α : Type} {s si u : Shape} {w : Nat}

/-- No update index lands on cell `i`: the result there is the operand's element. -/
theorem scatter_set_miss (d : ScatterDims s si u) (x : s.Idx → α) (idx : IVec si w) (upd : u.Idx → α) (i : s.Idx)
    (h : ∀ k : u.Idx, d.resultIdx? k idx ≠ some i) :
    Host.scatter d (fun _ b => b) x idx upd i = x i := by
  unfold Host.scatter
  refine foldl_step_miss _ i _ x (fun r n _ => ?_)
  have hn := h (u.rowMajor.symm n)
  cases hρ : d.resultIdx? (u.rowMajor.symm n) idx with
  | none => rfl
  | some i₀ =>
    have hne : i ≠ i₀ := fun e => hn (by rw [hρ, e])
    show (if i = i₀ then _ else r i) = r i
    rw [if_neg hne]

/-- Update index `k₀` lands on cell `i`, and every update index landing on `i` carries `v`: the result there is `v`. -/
theorem scatter_set_hit (d : ScatterDims s si u) (x : s.Idx → α) (idx : IVec si w) (upd : u.Idx → α) (i : s.Idx) (v : α)
    (k₀ : u.Idx) (h₀ : d.resultIdx? k₀ idx = some i) (h : ∀ k : u.Idx, d.resultIdx? k idx = some i → upd k = v) :
    Host.scatter d (fun _ b => b) x idx upd i = v := by
  unfold Host.scatter
  refine foldl_step_hit _ i v _ x (u.rowMajor k₀) (List.mem_finRange _) (fun r => ?_) (fun r n _ => ?_)
  · have e : d.resultIdx? (u.rowMajor.symm (u.rowMajor k₀)) idx = some i := by rw [Equiv.symm_apply_apply]; exact h₀
    have hv := h (u.rowMajor.symm (u.rowMajor k₀)) e
    rw [e]
    show (if i = i then upd (u.rowMajor.symm (u.rowMajor k₀)) else r i) = v
    rw [if_pos rfl]; exact hv
  · have hn := h (u.rowMajor.symm n)
    cases hρ : d.resultIdx? (u.rowMajor.symm n) idx with
    | none => exact Or.inl rfl
    | some i₀ =>
      by_cases e : i = i₀
      · refine Or.inr ?_
        show (if i = i₀ then upd (u.rowMajor.symm n) else r i) = v
        rw [if_pos e]; exact hn (by rw [hρ, e])
      · refine Or.inl ?_
        show (if i = i₀ then upd (u.rowMajor.symm n) else r i) = r i
        rw [if_neg e]

/-- Exactly one update index, `k₀`, lands on cell `i`: the result there is the update's element at `k₀`. -/
theorem scatter_set_unique (d : ScatterDims s si u) (x : s.Idx → α) (idx : IVec si w) (upd : u.Idx → α) (i : s.Idx)
    (k₀ : u.Idx) (h₀ : d.resultIdx? k₀ idx = some i) (h : ∀ k : u.Idx, d.resultIdx? k idx = some i → k = k₀) :
    Host.scatter d (fun _ b => b) x idx upd i = upd k₀ :=
  scatter_set_hit d x idx upd i (upd k₀) k₀ h₀ (fun k hk => by rw [h k hk])

end Scatter

/-! ## Where an update lands: a scatter along axis 0 at one index word per update -/

section Dims
variable {N K D w : Nat}

/-- SCALAR updates into a flat array: operand `[N]`, scatter indices `[K, 1]` (one index word per update), updates `[K]`; the operand's
    one axis is inserted, no window axes. The conditions `wf` are decided on a program's literal shapes. -/
abbrev setDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- Update `k`'s window starts at the index word `idx[k, 0]`, read signed. -/
theorem setDims_start (wf : ScatterDims.WF ⟨1, ![N]⟩ ⟨2, ![K, 1]⟩ ⟨1, ![K]⟩ [] [0] [0] 1) (k : Fin K)
    (idx : IVec ⟨2, ![K, 1]⟩ w) : (setDims N K wf).start (ix1 k) idx 0 = (idx (ix2 k (0 : Fin 1))).toInt := by
  unfold ScatterDims.start
  rw [dif_pos (show (0 : Fin 1) ∈ (setDims N K wf).scatterDimsToOperandDims from List.mem_singleton.mpr rfl)]
  have hsi : (setDims N K wf).siIdx (ix1 k) ⟨List.idxOf (0 : Fin 1) (setDims N K wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- A scalar update has no window coordinate. -/
theorem setDims_window (wf : ScatterDims.WF ⟨1, ![N]⟩ ⟨2, ![K, 1]⟩ ⟨1, ![K]⟩ [] [0] [0] 1) (k : Fin K) :
    (setDims N K wf).window (ix1 k) 0 = 0 := by
  unfold ScatterDims.window
  rw [dif_neg (show ¬ (0 : Fin 1) ∈ (setDims N K wf).sKept from fun hmem => by
    simp [ScatterDims.sKept, Shape.kept] at hmem)]

/-- WHERE A SCALAR UPDATE LANDS: update `k` lands on cell `i` exactly when its index word `idx[k, 0]`, read signed, is `i`. (A word that
    is negative or at least `N` lands nowhere.) -/
theorem setDims_resultIdx?_eq_some_iff (wf : ScatterDims.WF ⟨1, ![N]⟩ ⟨2, ![K, 1]⟩ ⟨1, ![K]⟩ [] [0] [0] 1) (k : Fin K)
    (idx : IVec ⟨2, ![K, 1]⟩ w) (i : Fin N) :
    (setDims N K wf).resultIdx? (ix1 k) idx = some (ix1 i) ↔ (idx (ix2 k (0 : Fin 1))).toInt = (i.val : Int) := by
  have hs : ∀ a, (setDims N K wf).start (ix1 k) idx a + ((setDims N K wf).window (ix1 k) a : Int)
      = (idx (ix2 k (0 : Fin 1))).toInt := by
    intro a
    obtain rfl : a = 0 := Subsingleton.elim _ _
    rw [setDims_start, setDims_window]; simp
  unfold ScatterDims.resultIdx?
  split_ifs with h
  · rw [Option.some.injEq]
    constructor
    · intro e
      have hv : ((setDims N K wf).start (ix1 k) idx 0 + ((setDims N K wf).window (ix1 k) 0 : Int)).toNat = i.val :=
        congrArg Fin.val (congrFun e 0)
      have h0 := (h 0).1
      rw [hs 0] at hv h0
      omega
    · intro e
      funext a
      obtain rfl : a = 0 := Subsingleton.elim _ _
      refine Fin.ext ?_
      show ((setDims N K wf).start (ix1 k) idx 0 + ((setDims N K wf).window (ix1 k) 0 : Int)).toNat = i.val
      rw [hs 0, e]; simp
  · constructor
    · intro e; cases e
    · intro e
      exfalso; apply h
      intro a
      rw [hs a, e]
      obtain rfl : a = 0 := Subsingleton.elim _ _
      refine ⟨Int.natCast_nonneg _, ?_⟩
      show (i.val : Int) < (N : Int)
      exact_mod_cast i.isLt

/-- ROW updates into a matrix: operand `[N, D]`, scatter indices `[K, 1]` (one index word per update row), updates `[K, D]`; the
    operand's axis 0 is inserted, the updates' axis 1 is the window axis and goes to the operand's axis 1. -/
abbrev setRowDims (N K D : Nat) (wf : ScatterDims.WF ⟨2, ![N, D]⟩ ⟨2, ![K, 1]⟩ ⟨2, ![K, D]⟩ [1] [0] [0] 1) :
    ScatterDims ⟨2, ![N, D]⟩ ⟨2, ![K, 1]⟩ ⟨2, ![K, D]⟩ where
  updateWindowDims := [1]
  insertedWindowDims := [0]
  scatterDimsToOperandDims := [0]
  indexVectorDim := 1
  wf := wf

/-- On axis 0 update row `k`'s window starts at the index word `idx[k, 0]`, read signed. -/
theorem setRowDims_start0 (wf : ScatterDims.WF ⟨2, ![N, D]⟩ ⟨2, ![K, 1]⟩ ⟨2, ![K, D]⟩ [1] [0] [0] 1) (k : Fin K) (c : Fin D)
    (idx : IVec ⟨2, ![K, 1]⟩ w) : (setRowDims N K D wf).start (ix2 k c) idx 0 = (idx (ix2 k (0 : Fin 1))).toInt := by
  unfold ScatterDims.start
  rw [dif_pos (show (0 : Fin 2) ∈ (setRowDims N K D wf).scatterDimsToOperandDims from List.mem_singleton.mpr rfl)]
  have hsi : (setRowDims N K D wf).siIdx (ix2 k c) ⟨List.idxOf (0 : Fin 2) (setRowDims N K D wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On axis 1 the window starts at `0`: no index word names that axis. -/
theorem setRowDims_start1 (wf : ScatterDims.WF ⟨2, ![N, D]⟩ ⟨2, ![K, 1]⟩ ⟨2, ![K, D]⟩ [1] [0] [0] 1) (k : Fin K) (c : Fin D)
    (idx : IVec ⟨2, ![K, 1]⟩ w) : (setRowDims N K D wf).start (ix2 k c) idx 1 = 0 := by
  unfold ScatterDims.start
  rw [dif_neg (show ¬ (1 : Fin 2) ∈ (setRowDims N K D wf).scatterDimsToOperandDims from fun hmem => by
    simp at hmem)]

/-- No window coordinate on the inserted axis 0. -/
theorem setRowDims_window0 (wf : ScatterDims.WF ⟨2, ![N, D]⟩ ⟨2, ![K, 1]⟩ ⟨2, ![K, D]⟩ [1] [0] [0] 1) (k : Fin K) (c : Fin D) :
    (setRowDims N K D wf).window (ix2 k c) 0 = 0 := by
  unfold ScatterDims.window
  rw [dif_neg (show ¬ (0 : Fin 2) ∈ (setRowDims N K D wf).sKept from fun hmem => by
    simp [ScatterDims.sKept, Shape.kept] at hmem)]

/-- On axis 1 the window coordinate is the update's column. -/
theorem setRowDims_window1 (wf : ScatterDims.WF ⟨2, ![N, D]⟩ ⟨2, ![K, 1]⟩ ⟨2, ![K, D]⟩ [1] [0] [0] 1) (k : Fin K) (c : Fin D) :
    (setRowDims N K D wf).window (ix2 k c) 1 = c.val := by
  unfold ScatterDims.window
  rw [dif_pos (show (1 : Fin 2) ∈ (setRowDims N K D wf).sKept from by
    simp [ScatterDims.sKept, Shape.kept])]
  rfl

/-- WHERE A ROW UPDATE'S ELEMENT LANDS: element `(k, c)` of the updates lands on cell `(i, c')` exactly when the index word `idx[k, 0]`,
    read signed, is `i`, and the columns agree. (A word that is negative or at least `N` lands nowhere.) -/
theorem setRowDims_resultIdx?_eq_some_iff (wf : ScatterDims.WF ⟨2, ![N, D]⟩ ⟨2, ![K, 1]⟩ ⟨2, ![K, D]⟩ [1] [0] [0] 1)
    (k : Fin K) (c : Fin D) (idx : IVec ⟨2, ![K, 1]⟩ w) (i : Fin N) (c' : Fin D) :
    (setRowDims N K D wf).resultIdx? (ix2 k c) idx = some (ix2 i c') ↔
      ((idx (ix2 k (0 : Fin 1))).toInt = (i.val : Int) ∧ c = c') := by
  have hs0 : (setRowDims N K D wf).start (ix2 k c) idx 0 + ((setRowDims N K D wf).window (ix2 k c) 0 : Int)
      = (idx (ix2 k (0 : Fin 1))).toInt := by
    rw [setRowDims_start0, setRowDims_window0]; simp
  have hs1 : (setRowDims N K D wf).start (ix2 k c) idx 1 + ((setRowDims N K D wf).window (ix2 k c) 1 : Int)
      = (c.val : Int) := by
    rw [setRowDims_start1, setRowDims_window1]; simp
  unfold ScatterDims.resultIdx?
  split_ifs with h
  · rw [Option.some.injEq]
    constructor
    · intro e
      have hv0 : ((setRowDims N K D wf).start (ix2 k c) idx 0 + ((setRowDims N K D wf).window (ix2 k c) 0 : Int)).toNat
          = i.val := congrArg Fin.val (congrFun e 0)
      have hv1 : ((setRowDims N K D wf).start (ix2 k c) idx 1 + ((setRowDims N K D wf).window (ix2 k c) 1 : Int)).toNat
          = c'.val := congrArg Fin.val (congrFun e 1)
      have h0 := (h 0).1
      rw [hs0] at hv0 h0
      rw [hs1] at hv1
      refine ⟨by omega, Fin.ext (by simpa using hv1)⟩
    · rintro ⟨e, rfl⟩
      funext a
      refine Fin.ext ?_
      match a with
      | ⟨0, _⟩ =>
        show ((setRowDims N K D wf).start (ix2 k c) idx 0 + ((setRowDims N K D wf).window (ix2 k c) 0 : Int)).toNat = i.val
        rw [hs0, e]; simp
      | ⟨1, _⟩ =>
        show ((setRowDims N K D wf).start (ix2 k c) idx 1 + ((setRowDims N K D wf).window (ix2 k c) 1 : Int)).toNat = c.val
        rw [hs1]; simp
  · constructor
    · intro e; cases e
    · rintro ⟨e, -⟩
      exfalso; apply h
      intro a
      match a with
      | ⟨0, _⟩ =>
        show 0 ≤ (setRowDims N K D wf).start (ix2 k c) idx 0 + ((setRowDims N K D wf).window (ix2 k c) 0 : Int) ∧
          (setRowDims N K D wf).start (ix2 k c) idx 0 + ((setRowDims N K D wf).window (ix2 k c) 0 : Int) < (N : Int)
        rw [hs0, e]
        exact ⟨Int.natCast_nonneg _, by exact_mod_cast i.isLt⟩
      | ⟨1, _⟩ =>
        show 0 ≤ (setRowDims N K D wf).start (ix2 k c) idx 1 + ((setRowDims N K D wf).window (ix2 k c) 1 : Int) ∧
          (setRowDims N K D wf).start (ix2 k c) idx 1 + ((setRowDims N K D wf).window (ix2 k c) 1 : Int) < (D : Int)
        rw [hs1]
        exact ⟨Int.natCast_nonneg _, by exact_mod_cast c.isLt⟩

end Dims

end Idealize.ShloMosaic.ScatterSet
-- ==== Proof.HostScatter.lean ====
import proofs.«401532_j12575664243197_3_alg».proof.Proof.Gen.KernelIdeal
import proofs.«401532_j12575664243197_3_alg».proof.Proof.LibScatterSet
import Idealize.ShloMosaic.Lib.ValueIdx

/-! # Zero written over row `0` of every subspace's table

The host's `x.at[:, 0, :].set(u)` is a scatter with one index word, `0`, naming the row; update entry `(k, d)` lands on cell
`(k, 0, d)`, so the result is `u` in row `0` and `x` elsewhere. -/

noncomputable section

namespace Cert.KernelIdeal.HostScatter

open Idealize.ShloMosaic Idealize.ShloMosaic.ValueIdx Cert.KernelIdeal Cert.KernelIdeal.Gen

/-! Where an update index lands. The operand is [8, 256, 64], the updates [8, 64], and there is one scatter index word; operand axis 1
is inserted and is the one axis the index word names; the updates' axes 0 and 1 are window axes and go to operand axes 0 and 2. So
update (k, d) lands on cell (k, r, d), where r is the index word read signed. -/

/-- On operand axis 0 no index word moves the window. -/
theorem start0 {w : Nat} (j : S8x64.Idx) (idx : IVec S1 w) : scatter_S8x256x64_S1_S8x64_01_1_1_0.start j idx 0 = 0 := by
  unfold ScatterDims.start
  rw [dif_neg (show ¬ (0 : Fin 3) ∈ scatter_S8x256x64_S1_S8x64_01_1_1_0.scatterDimsToOperandDims from by decide)]

/-- On operand axis 2 no index word moves the window. -/
theorem start2 {w : Nat} (j : S8x64.Idx) (idx : IVec S1 w) : scatter_S8x256x64_S1_S8x64_01_1_1_0.start j idx 2 = 0 := by
  unfold ScatterDims.start
  rw [dif_neg (show ¬ (2 : Fin 3) ∈ scatter_S8x256x64_S1_S8x64_01_1_1_0.scatterDimsToOperandDims from by decide)]

/-- On operand axis 1 the window starts at the one index word, read signed. -/
theorem start1 {w : Nat} (j : S8x64.Idx) (idx : IVec S1 w) :
    scatter_S8x256x64_S1_S8x64_01_1_1_0.start j idx 1 = (idx (ix1 (0 : Fin 1))).toInt := by
  unfold ScatterDims.start
  rw [dif_pos (show (1 : Fin 3) ∈ scatter_S8x256x64_S1_S8x64_01_1_1_0.scatterDimsToOperandDims from by decide)]
  have hsi : scatter_S8x256x64_S1_S8x64_01_1_1_0.siIdx j ⟨List.idxOf (1 : Fin 3) scatter_S8x256x64_S1_S8x64_01_1_1_0.scatterDimsToOperandDims,
      List.idxOf_lt_length_iff.2 (by decide)⟩ = ix1 (0 : Fin 1) := by
    funext b; refine Fin.ext ?_
    match b with
    | ⟨0, _⟩ => rfl
  rw [hsi]

theorem window0 (j : S8x64.Idx) : scatter_S8x256x64_S1_S8x64_01_1_1_0.window j 0 = (j 0).val := by
  unfold ScatterDims.window
  rw [dif_pos (show (0 : Fin 3) ∈ scatter_S8x256x64_S1_S8x64_01_1_1_0.sKept from by decide)]
  rfl

theorem window1 (j : S8x64.Idx) : scatter_S8x256x64_S1_S8x64_01_1_1_0.window j 1 = 0 := by
  unfold ScatterDims.window
  rw [dif_neg (show ¬ (1 : Fin 3) ∈ scatter_S8x256x64_S1_S8x64_01_1_1_0.sKept from by decide)]

theorem window2 (j : S8x64.Idx) : scatter_S8x256x64_S1_S8x64_01_1_1_0.window j 2 = (j 1).val := by
  unfold ScatterDims.window
  rw [dif_pos (show (2 : Fin 3) ∈ scatter_S8x256x64_S1_S8x64_01_1_1_0.sKept from by decide)]
  rfl

/-- WHERE AN UPDATE LANDS when the index word is 0: update (k, d) lands on cell (k, 0, d), inside the operand. -/
theorem resultIdx?_zero (k : Fin 8) (d : Fin 64) (idx : IVec S1 32) (h0 : idx (ix1 (0 : Fin 1)) = 0#32) :
    scatter_S8x256x64_S1_S8x64_01_1_1_0.resultIdx? (ix2 k d) idx = some (ix3 k (0 : Fin 256) d) := by
  have hs0 : scatter_S8x256x64_S1_S8x64_01_1_1_0.start (ix2 k d) idx 0
      + (scatter_S8x256x64_S1_S8x64_01_1_1_0.window (ix2 k d) 0 : Int) = (k.val : Int) := by
    rw [start0, window0]; simp
  have hs1 : scatter_S8x256x64_S1_S8x64_01_1_1_0.start (ix2 k d) idx 1
      + (scatter_S8x256x64_S1_S8x64_01_1_1_0.window (ix2 k d) 1 : Int) = 0 := by
    rw [start1, window1, h0]; simp
  have hs2 : scatter_S8x256x64_S1_S8x64_01_1_1_0.start (ix2 k d) idx 2
      + (scatter_S8x256x64_S1_S8x64_01_1_1_0.window (ix2 k d) 2 : Int) = (d.val : Int) := by
    rw [start2, window2]; simp
  have hin : ∀ a : Fin S8x256x64.rank,
      0 ≤ scatter_S8x256x64_S1_S8x64_01_1_1_0.start (ix2 k d) idx a + (scatter_S8x256x64_S1_S8x64_01_1_1_0.window (ix2 k d) a : Int) ∧
        scatter_S8x256x64_S1_S8x64_01_1_1_0.start (ix2 k d) idx a + (scatter_S8x256x64_S1_S8x64_01_1_1_0.window (ix2 k d) a : Int)
          < (S8x256x64.size a : Int) := by
    intro a
    match a with
    | ⟨0, _⟩ =>
      show 0 ≤ scatter_S8x256x64_S1_S8x64_01_1_1_0.start (ix2 k d) idx 0 + (scatter_S8x256x64_S1_S8x64_01_1_1_0.window (ix2 k d) 0 : Int) ∧
        scatter_S8x256x64_S1_S8x64_01_1_1_0.start (ix2 k d) idx 0 + (scatter_S8x256x64_S1_S8x64_01_1_1_0.window (ix2 k d) 0 : Int) < (8 : Int)
      rw [hs0]; omega
    | ⟨1, _⟩ =>
      show 0 ≤ scatter_S8x256x64_S1_S8x64_01_1_1_0.start (ix2 k d) idx 1 + (scatter_S8x256x64_S1_S8x64_01_1_1_0.window (ix2 k d) 1 : Int) ∧
        scatter_S8x256x64_S1_S8x64_01_1_1_0.start (ix2 k d) idx 1 + (scatter_S8x256x64_S1_S8x64_01_1_1_0.window (ix2 k d) 1 : Int) < (256 : Int)
      rw [hs1]; omega
    | ⟨2, _⟩ =>
      show 0 ≤ scatter_S8x256x64_S1_S8x64_01_1_1_0.start (ix2 k d) idx 2 + (scatter_S8x256x64_S1_S8x64_01_1_1_0.window (ix2 k d) 2 : Int) ∧
        scatter_S8x256x64_S1_S8x64_01_1_1_0.start (ix2 k d) idx 2 + (scatter_S8x256x64_S1_S8x64_01_1_1_0.window (ix2 k d) 2 : Int) < (64 : Int)
      rw [hs2]; omega
  unfold ScatterDims.resultIdx?
  rw [dif_pos hin]
  refine congrArg some (funext fun a => Fin.ext ?_)
  match a with
  | ⟨0, _⟩ =>
    show (scatter_S8x256x64_S1_S8x64_01_1_1_0.start (ix2 k d) idx 0
      + (scatter_S8x256x64_S1_S8x64_01_1_1_0.window (ix2 k d) 0 : Int)).toNat = k.val
    rw [hs0]; simp
  | ⟨1, _⟩ =>
    show (scatter_S8x256x64_S1_S8x64_01_1_1_0.start (ix2 k d) idx 1
      + (scatter_S8x256x64_S1_S8x64_01_1_1_0.window (ix2 k d) 1 : Int)).toNat = 0
    rw [hs1]; rfl
  | ⟨2, _⟩ =>
    show (scatter_S8x256x64_S1_S8x64_01_1_1_0.start (ix2 k d) idx 2
      + (scatter_S8x256x64_S1_S8x64_01_1_1_0.window (ix2 k d) 2 : Int)).toNat = d.val
    rw [hs2]; simp

/-- Writing the update over row `0` of every subspace (the one scatter index word is `0`), read at `(k, v, d)`: the update's
    entry `(k, d)` in row `0`, the operand's own entry in every other row. -/
theorem zeroRow_scatter_apply {α : Type} (x : S8x256x64.Idx → α) (idx : IVec S1 32) (upd : S8x64.Idx → α)
    (h0 : idx (ix1 (0 : Fin 1)) = 0#32) (k : Fin 8) (v : Fin 256) (d : Fin 64) :
    Host.scatter scatter_S8x256x64_S1_S8x64_01_1_1_0 (fun _ b => b) x idx upd (ix3 k v d)
      = if v.val = 0 then upd (ix2 k d) else x (ix3 k v d) := by
  by_cases hv : v.val = 0
  · rw [if_pos hv]
    obtain rfl : v = (0 : Fin 256) := Fin.ext hv
    refine ScatterSet.scatter_set_unique _ x idx upd _ (ix2 k d) (resultIdx?_zero k d idx h0) (fun j hj => ?_)
    obtain ⟨k', d', rfl⟩ : ∃ (k' : Fin 8) (d' : Fin 64), j = ix2 k' d' := ⟨j 0, j 1, eq_ix2 j⟩
    rw [resultIdx?_zero k' d' idx h0] at hj
    have hj' := Option.some.inj hj
    have e0 : k' = k := congrFun hj' 0
    have e1 : d' = d := congrFun hj' 2
    rw [e0, e1]
  · rw [if_neg hv]
    refine ScatterSet.scatter_set_miss _ x idx upd _ (fun j hj => hv ?_)
    obtain ⟨k', d', rfl⟩ : ∃ (k' : Fin 8) (d' : Fin 64), j = ix2 k' d' := ⟨j 0, j 1, eq_ix2 j⟩
    rw [resultIdx?_zero k' d' idx h0] at hj
    have e : (0 : Fin 256) = v := congrFun (Option.some.inj hj) 1
    rw [← e]; rfl

end Cert.KernelIdeal.HostScatter

end
-- ==== Proof.KernelHost.lean ====
import proofs.«401532_j12575664243197_3_alg».proof.Proof.Gen.KernelIdeal.Frame
import proofs.«401532_j12575664243197_3_alg».proof.Proof.Spec
import proofs.«401532_j12575664243197_3_alg».proof.Proof.LibGatherRow
import proofs.«401532_j12575664243197_3_alg».proof.Proof.HostScatter
import Idealize.ShloMosaic.Lib.StableHlo.Run
import Idealize.ShloMosaic.PureOps.Ideal.Laws
import Idealize.ShloMosaic.Lib.ValueIdx
import Idealize.ShloMosaic.Lib.Pipeline.Value

/-! # What the region is launched on

Before the region the host flattens the token ids to one axis of 131072 tokens, looks each token's row of eight codes up
in the table (a negative id wrapped once, the row clamped into the table), clamps each code above by 255 and puts code
`0` at every padding token; and it writes zero over row `0` of every subspace's centroid table. Read at an index: token
`T` of the flat axis is token `(T / 512, T % 512)`, its code for subspace `k` is `0` at a padding token and the
specification's `codeAt` otherwise; centroid entry `(k, v, d)` is zero for `v = 0` and the argument's entry otherwise. -/

noncomputable section

namespace Cert.KernelIdeal.KValue

open Idealize.ShloMosaic Idealize.ShloMosaic.TcCoe Idealize.SL.Sem Idealize.ShloMosaic.StableHlo Idealize.ShloMosaic.ValueIdx
open Cert.KernelIdeal Cert.KernelIdeal.Gen

/-- The flat token ids. -/
def flatIds (ids : IVec S256x512 32) : IVec S131072 32 := shapeCast S131072 ids shapeCasts_S256x512_S131072

/-- The flat ids, each wrapped once by the table's length when negative, as a column of index words. -/
def wrappedIds (ids : IVec S256x512 32) : IVec S131072x1 32 :=
  broadcastInDim S131072x1 ![0] bcast_S131072_S131072x1_0
    (select (cmpi .slt (flatIds ids) (broadcastInDim S131072 ![] bcast_S_S131072 (constantI S_ 32 0#32)))
      (addi (flatIds ids) (broadcastInDim S131072 ![] bcast_S_S131072 (constantI S_ 32 1000000#32)))
      (flatIds ids))

/-- The codes the region is launched on, as the host operations compute them from the ids and the table. -/
def launchedCodes (ids : IVec S256x512 32) (tbl : IVec S1000000x8 32) : IVec S131072x8 32 :=
  select
    (broadcastInDim S131072x8 ![0, 1] bcast_S131072x1_S131072x8_0_1
      (broadcastInDim S131072x1 ![0] bcast_S131072_S131072x1_0
        (cmpi .eq (flatIds ids) (broadcastInDim S131072 ![] bcast_S_S131072 (constantI S_ 32 0#32)))))
    (broadcastInDim S131072x8 ![] bcast_S_S131072x8 (id (constantI S_ 32 0#32)))
    (minsi
      (Host.gather gather_S1000000x8_S131072x1_S131072x8_1_0_n_n_0_1_18 tbl (wrappedIds ids))
      (broadcastInDim S131072x8 ![] bcast_S_S131072x8 (constantI S_ 32 255#32)))

/-- The centroids the region is launched on: the argument with zero written over row `0` of every subspace. -/
def launchedCent (cent : FVec Ideal S8x256x64 .f32) : FVec Ideal S8x256x64 .bf16 :=
  truncf .bf16
    (Host.scatter scatter_S8x256x64_S1_S8x64_01_1_1_0 (fun _ b => b) cent
      (broadcastInDim S1 ![] bcast_S_S1 (constantI S_ 32 0#32))
      (broadcastInDim S8x64 ![] bcast_S_S8x64 (constant (F := Ideal) S_ .f32 0x00000000#32)))
    bitsLt_bf16_f32

/-! ## The terms read at an index -/

/-- A choice on a word equality test is the `if` on the equality. -/
theorem select_cmpi_eq {α : Type} (x y : BitVec 32) (a b : α) :
    Scalar.select (IntOp.cmpi .eq x y) a b = if x = y then a else b := by
  by_cases h : x = y
  · rw [if_pos h]; subst h
    show (if BitVec.ofBool (x == x) = 1 then a else b) = a
    rw [beq_self_eq_true]; rfl
  · rw [if_neg h]
    show (if BitVec.ofBool (x == y) = 1 then a else b) = b
    rw [show (x == y) = false from beq_eq_false_iff_ne.mpr h]; rfl

/-- Token `T` of the flat axis is token `(T / 512, T % 512)`. -/
theorem flatIds_apply (ids : IVec S256x512 32) (T : Fin 131072) :
    flatIds ids (ix1 T) = ids (ix2 (⟨T.val / 512, by omega⟩ : Fin 256) (⟨T.val % 512, by omega⟩ : Fin 512)) := by
  unfold flatIds
  refine shapeCast_apply ids shapeCasts_S256x512_S131072 (ix1 T) _ ?_
  rw [Shape.rowMajor_val_two, Shape.rowMajor_val_one]
  show T.val / 512 * 512 + T.val % 512 = T.val
  omega

/-- A per-token array viewed as a column reads the token's entry. -/
theorem tokenCol_apply {α : Type} (y : S131072.Idx → α) (T : Fin 131072) :
    broadcastInDim S131072x1 ![0] bcast_S131072_S131072x1_0 y (ix2 T (0 : Fin 1)) = y (ix1 T) :=
  broadcastInDim_apply _ bcast_S131072_S131072x1_0 y _ (ix1 T) (fun a => match a with
    | ⟨0, _⟩ => by show T.val = if (131072 : Nat) = 1 then 0 else T.val; rw [if_neg (by decide)])

/-- A column repeated over the eight subspaces reads the column's entry. -/
theorem colRep_apply {α : Type} (z : S131072x1.Idx → α) (T : Fin 131072) (k : Fin 8) :
    broadcastInDim S131072x8 ![0, 1] bcast_S131072x1_S131072x8_0_1 z (ix2 T k) = z (ix2 T (0 : Fin 1)) :=
  broadcastInDim_apply _ bcast_S131072x1_S131072x8_0_1 z _ (ix2 T (0 : Fin 1)) (fun a => match a with
    | ⟨0, _⟩ => by show T.val = if (131072 : Nat) = 1 then 0 else T.val; rw [if_neg (by decide)]
    | ⟨1, _⟩ => by show 0 = if (1 : Nat) = 1 then 0 else k.val; rw [if_pos rfl])

/-- The index word of token `T`: its id wrapped once by the table's length. -/
theorem wrappedIds_apply (ids : IVec S256x512 32) (T : Fin 131072) :
    wrappedIds ids (ix2 T (0 : Fin 1))
      = Cert.PQ.wrapWord 1000000#32 (ids (ix2 (⟨T.val / 512, by omega⟩ : Fin 256) (⟨T.val % 512, by omega⟩ : Fin 512))) := by
  unfold wrappedIds
  rw [tokenCol_apply, select_apply]
  show Scalar.select (IntOp.cmpi .slt (flatIds ids (ix1 T)) 0#32) (IntOp.addi (flatIds ids (ix1 T)) 1000000#32)
      (flatIds ids (ix1 T)) = _
  rw [flatIds_apply]
  rfl

/-- THE LAUNCHED CODES AT `(T, k)`: `0` at a padding token, else the code of subspace `k` for token `(T / 512, T % 512)`. -/
theorem launchedCodes_apply (ids : IVec S256x512 32) (tbl : IVec S1000000x8 32) (T : Fin 131072) (k : Fin 8) :
    launchedCodes ids tbl (ix2 T k)
      = if ids (ix2 (⟨T.val / 512, by omega⟩ : Fin 256) (⟨T.val % 512, by omega⟩ : Fin 512)) = 0#32 then 0#32
        else Cert.PQ.codeAt ids tbl ⟨T.val / 512, by omega⟩ ⟨T.val % 512, by omega⟩ k := by
  unfold launchedCodes
  rw [select_apply, colRep_apply, tokenCol_apply]
  show Scalar.select (IntOp.cmpi .eq (flatIds ids (ix1 T)) 0#32) 0#32
      (IntOp.minsi (Host.gather gather_S1000000x8_S131072x1_S131072x8_1_0_n_n_0_1_18 tbl (wrappedIds ids) (ix2 T k)) 255#32) = _
  rw [select_cmpi_eq, flatIds_apply]
  refine if_congr Iff.rfl rfl ?_
  unfold Cert.PQ.codeAt
  refine congrArg (fun z => IntOp.minsi z 255#32) ?_
  rw [Idealize.ShloMosaic.GatherRow.gather_rowTake_apply (by decide) gather_S1000000x8_S131072x1_S131072x8_1_0_n_n_0_1_18
      rfl rfl rfl rfl rfl rfl rfl tbl _ T k]
  refine congrArg (fun n : Fin 1000000 => tbl (ix2 n k)) (Fin.ext ?_)
  show min (wrappedIds ids (ix2 T (0 : Fin 1))).toInt.toNat (1000000 - 1)
    = min (Cert.PQ.wrapWord 1000000#32 (ids (ix2 (⟨T.val / 512, by omega⟩ : Fin 256) (⟨T.val % 512, by omega⟩ : Fin 512)))).toInt.toNat 999999
  rw [wrappedIds_apply]

/-- THE LAUNCHED CENTROIDS AT `(k, v, d)`: zero in row `0`, the argument's entry elsewhere. -/
theorem launchedCent_apply (cent : FVec Ideal S8x256x64 .f32) (k : Fin 8) (v : Fin 256) (d : Fin 64) :
    launchedCent cent (ix3 k v d) = if v.val = 0 then 0 else cent (ix3 k v d) := by
  unfold launchedCent
  rw [truncf_apply, Cert.KernelIdeal.HostScatter.zeroRow_scatter_apply _ _ _ rfl]
  by_cases hv : v.val = 0
  · rw [if_pos hv, if_pos hv]
    exact Idealize.ShloMosaic.Ideal.ofBits_zero_f32
  · rw [if_neg hv, if_neg hv]

variable (m : (ℓ : Loc nD τ sig) → Buf (Elt Ideal) ℓ)

set_option maxHeartbeats 1000000 in
/-- The region finds the codes at the host operations' term of the argument arrays. -/
theorem V_codes (c : Dev nD) :
    V m c main_v13 = launchedCodes (m ((c : Thread nD τ).loc main_arg0)) (m ((c : Thread nD τ).loc main_arg1)) := by
  unfold launchedCodes wrappedIds flatIds
  dsimp only [V, V0]
  simp only [hostOps0, hostOps0_1, hostOps0_2, List.flatten_cons, List.flatten_nil, List.append_nil, List.cons_append, List.nil_append]
  after_results
  rfl

set_option maxHeartbeats 1000000 in
/-- The region finds the centroids at the host operations' term of the argument array. -/
theorem V_cent (c : Dev nD) :
    V m c main_v17 = launchedCent (m ((c : Thread nD τ).loc main_arg2)) := by
  unfold launchedCent
  dsimp only [V, V0]
  simp only [hostOps0, hostOps0_1, hostOps0_2, List.flatten_cons, List.flatten_nil, List.append_nil, List.cons_append, List.nil_append]
  after_results

end Cert.KernelIdeal.KValue

end
-- ==== Proof.OneHot.lean ====
import proofs.«401532_j12575664243197_3_alg».proof.Proof.Gen.KernelIdeal.Skeleton
import proofs.«401532_j12575664243197_3_alg».proof.Proof.Spec
import Idealize.ShloMosaic.PureOps.Ideal.Laws
import Idealize.ShloMosaic.Lib.ValueIdx
import Idealize.ShloMosaic.Lib.Pipeline.Value
import Idealize.ShloMosaic.Lib.ValueLayout

/-! # The kernel body's four stored values, read at an entry

Each store writes 128 columns: two subspaces side by side, each the product of the tokens' one-hot code rows (a `1` where the
code equals the column number `0 … 255`, else `0`) with the subspace's `[256, 64]` centroid table. On the extended reals the
product at `(r, d)` is a sum over the 256 centroids with one non-zero term, the centroid row the code names, whatever the
table holds (`0 * x = 0` and `1 * x = x` for every extended real `x`). -/

noncomputable section

namespace Cert.KernelIdeal.OneHot

open Idealize.ShloMosaic Idealize.ShloMosaic.ValueIdx Cert.KernelIdeal Cert.KernelIdeal.Gen

/-! ## The operand indices of the one product the body uses

The product contracts axis 1 of a [4096, 256] left operand with axis 0 of a [256, 64] right operand: at the output entry
`(r, d)` and the contraction position `v` the left operand is read at `(r, v)` and the right one at `(v, d)`. -/

theorem lhs_dot_0 (j : S4096x64.Idx) (k : dot_S4096x256_S256x64_S4096x64_1_0_0_1_n_n.contr.Idx) :
    (dot_S4096x256_S256x64_S4096x64_1_0_0_1_n_n.lhsIdx j k 0 : ℕ) = j 0 := by
  simp [DotDims.lhsIdx, dot_S4096x256_S256x64_S4096x64_1_0_0_1_n_n]; rfl
theorem lhs_dot_1 (j : S4096x64.Idx) (k : dot_S4096x256_S256x64_S4096x64_1_0_0_1_n_n.contr.Idx) :
    (dot_S4096x256_S256x64_S4096x64_1_0_0_1_n_n.lhsIdx j k 1 : ℕ) = k ⟨0, by decide⟩ := by
  simp [DotDims.lhsIdx, dot_S4096x256_S256x64_S4096x64_1_0_0_1_n_n]; rfl
theorem rhs_dot_0 (j : S4096x64.Idx) (k : dot_S4096x256_S256x64_S4096x64_1_0_0_1_n_n.contr.Idx) :
    (dot_S4096x256_S256x64_S4096x64_1_0_0_1_n_n.rhsIdx j k 0 : ℕ) = k ⟨0, by decide⟩ := by
  simp [DotDims.rhsIdx, dot_S4096x256_S256x64_S4096x64_1_0_0_1_n_n]; rfl
theorem rhs_dot_1 (j : S4096x64.Idx) (k : dot_S4096x256_S256x64_S4096x64_1_0_0_1_n_n.contr.Idx) :
    (dot_S4096x256_S256x64_S4096x64_1_0_0_1_n_n.rhsIdx j k 1 : ℕ) = j 1 := by
  simp [DotDims.rhsIdx, dot_S4096x256_S256x64_S4096x64_1_0_0_1_n_n]; rfl

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot row of a code

Column `v` of row `r` compares the code of row `r`, read as a signed integer and then as a real, with the column number
read the same way; the comparison's bit, widened and read back as a real, is `1` where they agree and `0` elsewhere. -/

/-- A column number below 256, as a 32-bit word, reads back signed as itself. -/
theorem toInt_ofNat_col (v : Fin 256) : (BitVec.ofNat 32 v.val).toInt = (v.val : ℤ) := by
  have hv := v.isLt
  rw [BitVec.toInt_eq_toNat_cond, BitVec.toNat_ofNat]
  have h1 : v.val % 2 ^ 32 = v.val := Nat.mod_eq_of_lt (by omega)
  rw [h1, if_pos (by omega)]

/-- The column-number table at `(r, v)` is the real `v`. -/
theorem pay2_apply (r : Fin 4096) (v : Fin 256) :
    k0_pay2 (F := Ideal) (ix2 r v) = (((v.val : ℤ) : ℝ) : EReal) := by
  unfold k0_pay2
  rw [sitofp_apply, iota_single_apply]
  show (((BitVec.ofNat 32 v.val).toInt : ℝ) : EReal) = _
  rw [toInt_ofNat_col]

/-- A set comparison bit, widened to 32 bits, reads back signed as `1`; a clear one as `0`. -/
theorem bit_true : (((BitVec.ofBool true).setWidth 32).toInt : ℤ) = 1 := by decide
theorem bit_false : (((BitVec.ofBool false).setWidth 32).toInt : ℤ) = 0 := by decide

/-- The one-hot entry: `1` at the column the code names, `0` at every other. -/
theorem onehot_apply (c : IVec S4096x1 32) (r : Fin 4096) (v : Fin 256) :
    (truncf .bf16 (sitofp .f32 (extui 32 (cmpf .oeq (broadcastTo S4096x256 (sitofp .bf16
        (shapeCast S4096x1 c shapeCasts_S4096x1_S4096x1)) broadcasts_S4096x1_S4096x256) (k0_pay2 (F := Ideal))) natLt_1_32))
        bitsLt_bf16_f32 : FVec Ideal S4096x256 .bf16) (ix2 r v)
      = if (c (ix2 r (0 : Fin 1))).toInt = (v.val : ℤ) then (1 : EReal) else 0 := by
  rw [truncf_apply, sitofp_apply, extui_apply, cmpf_apply, broadcastTo_a1_ab_apply, sitofp_apply, shapeCast_self, pay2_apply]
  show (((((Ideal.cmp .oeq (((c (ix2 r (0 : Fin 1))).toInt : ℝ) : EReal) (((v.val : ℤ) : ℝ) : EReal)).setWidth 32).toInt : ℤ) : ℝ) : EReal) = _
  show (((((BitVec.ofBool (decide ((((c (ix2 r (0 : Fin 1))).toInt : ℝ) : EReal) = (((v.val : ℤ) : ℝ) : EReal)))).setWidth 32).toInt : ℤ) : ℝ) : EReal) = _
  by_cases h : (c (ix2 r (0 : Fin 1))).toInt = (v.val : ℤ)
  · rw [if_pos h, decide_eq_true (by rw [h]), bit_true]
    simp
  · rw [if_neg h]
    have hne : ¬ ((((c (ix2 r (0 : Fin 1))).toInt : ℝ) : EReal) = (((v.val : ℤ) : ℝ) : EReal)) := by
      intro e
      exact h (by exact_mod_cast e)
    rw [decide_eq_false hne, bit_false]
    simp

/-! ## The product of a one-hot row with a centroid table

Into a zero accumulator the product at `(r, d)` is the sum, over the 256 columns `v`, of the left operand at `(r, v)` times
the table at `(v, d)`. When the left row is `1` at the column a code in `[0, 255]` names and `0` elsewhere, every term but
that column's vanishes (on the extended reals `0 * x = 0` and `1 * x = x` for every `x`, the infinities included), and the sum
is the table's entry in the row the code names. -/

/-- A code in `[0, 255]` names the centroid row with its own number. -/
theorem centRow_val {code : BitVec 32} (hc : 0 ≤ code.toInt ∧ code.toInt ≤ 255) :
    ((Cert.PQ.centRow code).val : ℤ) = code.toInt := by
  show ((min code.toInt.toNat 255 : ℕ) : ℤ) = code.toInt
  omega

theorem matmul_onehot (A : FVec Ideal S4096x256 .bf16) (y : FVec Ideal S1x256x64 .bf16) (code : BitVec 32)
    (r : Fin 4096) (d : Fin 64) (hc : 0 ≤ code.toInt ∧ code.toInt ≤ 255)
    (hA : ∀ v : Fin 256, A (ix2 r v) = if code.toInt = (v.val : ℤ) then (1 : EReal) else 0) :
    matmul dot_S4096x256_S256x64_S4096x64_1_0_0_1_n_n none A (shapeCast S256x64 y shapeCasts_S1x256x64_S256x64)
        (constant (F := Ideal) S4096x64 .f32 0x00000000#32) (ix2 r d)
      = y (ix3 (0 : Fin 1) (Cert.PQ.centRow code) d) := by
  simp only [matmul]
  rw [Ideal.matmul_constant_zero_apply,
    ← Equiv.sum_comp (contrEquiv1 dot_S4096x256_S256x64_S4096x64_1_0_0_1_n_n 256 rfl rfl).symm]
  have hl : ∀ v : Fin 256, dot_S4096x256_S256x64_S4096x64_1_0_0_1_n_n.lhsIdx (ix2 r d)
      ((contrEquiv1 dot_S4096x256_S256x64_S4096x64_1_0_0_1_n_n 256 rfl rfl).symm v) = ix2 r v := fun v =>
    funext fun a => match a with
      | ⟨0, _⟩ => Fin.ext (lhs_dot_0 _ _)
      | ⟨1, _⟩ => Fin.ext ((lhs_dot_1 _ _).trans (contrEquiv1_symm_val _ _ _ _ v))
  have hr : ∀ v : Fin 256, dot_S4096x256_S256x64_S4096x64_1_0_0_1_n_n.rhsIdx (ix2 r d)
      ((contrEquiv1 dot_S4096x256_S256x64_S4096x64_1_0_0_1_n_n 256 rfl rfl).symm v) = ix2 v d := fun v =>
    funext fun a => match a with
      | ⟨0, _⟩ => Fin.ext ((rhs_dot_0 _ _).trans (contrEquiv1_symm_val _ _ _ _ v))
      | ⟨1, _⟩ => Fin.ext (rhs_dot_1 _ _)
  simp only [hl, hr]
  have hv := centRow_val hc
  rw [Finset.sum_eq_single (Cert.PQ.centRow code)]
  · rw [hA, if_pos hv.symm, one_mul, shapeCast_1ab_ab_apply]
  · intro v _ hne
    rw [hA, if_neg, zero_mul]
    intro e
    exact hne (Fin.ext (by omega))
  · intro h
    exact absurd (Finset.mem_univ _) h

/-! ## Two 64-column blocks side by side -/

/-- Two `[4096, 64]` blocks joined along the columns read, at `(r, q)`, the left block at `(r, q)` when `q < 64` and the
    right block at `(r, q - 64)` otherwise. -/
theorem concat_pair_apply {α : Type} (X Y : S4096x64.Idx → α) (r : Fin 4096) (q : Fin 128) :
    concatenate S4096x128 1 [⟨S4096x64, X⟩, ⟨S4096x64, Y⟩] concatenates_S4096x64_S4096x64_S4096x128_d1 (ix2 r q)
      = if h : q.val < 64 then X (ix2 r ⟨q.val, h⟩) else Y (ix2 r ⟨q.val - 64, by omega⟩) := by
  by_cases h : q.val < 64
  · rw [dif_pos h]
    exact concatenate_pair_apply_left 1 X Y _ (ix2 r q) rfl (ix2 r ⟨q.val, h⟩) fun b =>
      match b with | ⟨0, _⟩ => rfl | ⟨1, _⟩ => rfl
  · rw [dif_neg h]
    refine concatenate_pair_apply_right 1 X Y _ (ix2 r q) rfl rfl (ix2 r ⟨q.val - 64, by omega⟩) (fun b hb => ?_) ?_
    · match b with
      | ⟨0, _⟩ => rfl
      | ⟨1, _⟩ => exact absurd rfl hb
    · show q.val - 64 + 64 = q.val
      omega

/-! ## The four stored values -/

/-- Entry `(r, q)` of the 128 columns a pair of subspaces fills: the left 64 columns are the centroid row the first
    subspace's code names, the right 64 the row the second subspace's code names. -/
def pairEntry (ca cb : IVec S4096x1 32) (ya yb : Vec Ideal S1x256x64 .bf16) (r : Fin 4096) (q : Fin 128) : EReal :=
  if h : q.val < 64 then ya (ix3 (0 : Fin 1) (Cert.PQ.centRow (ca (ix2 r (0 : Fin 1)))) ⟨q.val, h⟩)
  else yb (ix3 (0 : Fin 1) (Cert.PQ.centRow (cb (ix2 r (0 : Fin 1)))) ⟨q.val - 64, by omega⟩)

/-- The first store's value (subspaces 0 and 1) at entry `(r, q)`: the pair's entry, for codes in `[0, 255]`. -/
theorem pay3_apply (ca cb : IVec S4096x1 32) (ya yb : Vec Ideal S1x256x64 .bf16) (r : Fin 4096) (q : Fin 128)
    (ha : 0 ≤ (ca (ix2 r (0 : Fin 1))).toInt ∧ (ca (ix2 r (0 : Fin 1))).toInt ≤ 255)
    (hb : 0 ≤ (cb (ix2 r (0 : Fin 1))).toInt ∧ (cb (ix2 r (0 : Fin 1))).toInt ≤ 255) :
    k0_pay3 (F := Ideal) ca cb ya yb (ix2 r q) = pairEntry ca cb ya yb r q := by
  unfold k0_pay3
  refine (concat_pair_apply _ _ r q).trans ?_
  unfold pairEntry
  split
  · exact matmul_onehot _ ya _ r _ ha (onehot_apply ca r)
  · exact matmul_onehot _ yb _ r _ hb (onehot_apply cb r)

/-- The second store's value (subspaces 2 and 3) at entry `(r, q)`: the pair's entry, for codes in `[0, 255]`. -/
theorem pay6_apply (ca cb : IVec S4096x1 32) (ya yb : Vec Ideal S1x256x64 .bf16) (r : Fin 4096) (q : Fin 128)
    (ha : 0 ≤ (ca (ix2 r (0 : Fin 1))).toInt ∧ (ca (ix2 r (0 : Fin 1))).toInt ≤ 255)
    (hb : 0 ≤ (cb (ix2 r (0 : Fin 1))).toInt ∧ (cb (ix2 r (0 : Fin 1))).toInt ≤ 255) :
    k0_pay6 (F := Ideal) (k0_pay4 (F := Ideal) ca) (k0_pay5 (F := Ideal) cb) ya yb (ix2 r q) = pairEntry ca cb ya yb r q := by
  unfold k0_pay6 k0_pay4 k0_pay5
  refine (concat_pair_apply _ _ r q).trans ?_
  unfold pairEntry
  split
  · exact matmul_onehot _ ya _ r _ ha (onehot_apply ca r)
  · exact matmul_onehot _ yb _ r _ hb (onehot_apply cb r)

/-- The third store's value (subspaces 4 and 5) at entry `(r, q)`: the pair's entry, for codes in `[0, 255]`. -/
theorem pay7_apply (ca cb : IVec S4096x1 32) (ya yb : Vec Ideal S1x256x64 .bf16) (r : Fin 4096) (q : Fin 128)
    (ha : 0 ≤ (ca (ix2 r (0 : Fin 1))).toInt ∧ (ca (ix2 r (0 : Fin 1))).toInt ≤ 255)
    (hb : 0 ≤ (cb (ix2 r (0 : Fin 1))).toInt ∧ (cb (ix2 r (0 : Fin 1))).toInt ≤ 255) :
    k0_pay7 (F := Ideal) (k0_pay2 (F := Ideal)) ca cb ya yb (ix2 r q) = pairEntry ca cb ya yb r q := by
  unfold k0_pay7
  refine (concat_pair_apply _ _ r q).trans ?_
  unfold pairEntry
  split
  · exact matmul_onehot _ ya _ r _ ha (onehot_apply ca r)
  · exact matmul_onehot _ yb _ r _ hb (onehot_apply cb r)

/-- The fourth store's value (subspaces 6 and 7) at entry `(r, q)`: the pair's entry, for codes in `[0, 255]`. -/
theorem pay1_apply (ca cb : IVec S4096x1 32) (ya yb : Vec Ideal S1x256x64 .bf16) (r : Fin 4096) (q : Fin 128)
    (ha : 0 ≤ (ca (ix2 r (0 : Fin 1))).toInt ∧ (ca (ix2 r (0 : Fin 1))).toInt ≤ 255)
    (hb : 0 ≤ (cb (ix2 r (0 : Fin 1))).toInt ∧ (cb (ix2 r (0 : Fin 1))).toInt ≤ 255) :
    k0_pay1 (F := Ideal) (k0_pay2 (F := Ideal)) ca cb ya yb (ix2 r q) = pairEntry ca cb ya yb r q := by
  unfold k0_pay1
  refine (concat_pair_apply _ _ r q).trans ?_
  unfold pairEntry
  split
  · exact matmul_onehot _ ya _ r _ ha (onehot_apply ca r)
  · exact matmul_onehot _ yb _ r _ hb (onehot_apply cb r)

end Cert.KernelIdeal.OneHot

end
-- ==== Proof.KernelBlock.lean ====
import proofs.«401532_j12575664243197_3_alg».proof.Proof.Gen.KernelIdeal.Frame
import proofs.«401532_j12575664243197_3_alg».proof.Proof.Spec
import proofs.«401532_j12575664243197_3_alg».proof.Proof.OneHot
import Idealize.ShloMosaic.Lib.ValueIdx
import Idealize.ShloMosaic.Lib.Pipeline.Value

/-! # What the kernel body leaves in its output block

The body fills its `[4096, 512]` output block by four stores of 128 columns, each two subspaces side by side. Put
together: entry `(r, e)` of the block is entry `lane e` of the centroid row that token `r`'s code for subspace `sub e`
names, read in subspace `sub e`'s table — when every code of the block lies in `[0, 255]`. -/

noncomputable section

namespace Cert.KernelIdeal.KValue

open Idealize.ShloMosaic Idealize.ShloMosaic.ValueIdx
open Cert.KernelIdeal Cert.KernelIdeal.Gen Cert.KernelIdeal.OneHot

/-- The block the body leaves, as one function of the code block and the centroid table. -/
def blockOut (x0 : IVec S4096x8 32) (x1 : S8x256x64.Idx → EReal) : S4096x512.Idx → EReal := fun y =>
  x1 (ix3 (Cert.PQ.sub (y 1)) (Cert.PQ.centRow (x0 (ix2 (y 0) (Cert.PQ.sub (y 1))))) (Cert.PQ.lane (y 1)))

/-- The pair of subspaces `2 p`, `2 p + 1` read side by side is the block function on columns `128 p … 128 p + 127`. -/
theorem pairEntry_eq_blockOut (x0 : IVec S4096x8 32) (x1 : S8x256x64.Idx → EReal) (p : Nat) (hp : p < 4)
    (ca cb : IVec S4096x1 32) (ya yb : Vec Ideal S1x256x64 .bf16)
    (hca : ∀ r : Fin 4096, ca (ix2 r (0 : Fin 1)) = x0 (ix2 r (⟨2 * p, by omega⟩ : Fin 8)))
    (hcb : ∀ r : Fin 4096, cb (ix2 r (0 : Fin 1)) = x0 (ix2 r (⟨2 * p + 1, by omega⟩ : Fin 8)))
    (hya : ∀ (v : Fin 256) (d : Fin 64), ya (ix3 (0 : Fin 1) v d) = x1 (ix3 (⟨2 * p, by omega⟩ : Fin 8) v d))
    (hyb : ∀ (v : Fin 256) (d : Fin 64), yb (ix3 (0 : Fin 1) v d) = x1 (ix3 (⟨2 * p + 1, by omega⟩ : Fin 8) v d))
    (r : Fin 4096) (q : Fin 128) (j : S4096x512.Idx) (hj0 : (j 0).val = r.val) (hj1 : (j 1).val = 128 * p + q.val) :
    pairEntry ca cb ya yb r q = blockOut x0 x1 j := by
  have hq : q.val < 128 := q.isLt
  have e0 : j 0 = r := Fin.ext hj0
  unfold pairEntry blockOut
  by_cases h : q.val < 64
  · rw [dif_pos h, hya, hca]
    have es : Cert.PQ.sub (j 1) = (⟨2 * p, by omega⟩ : Fin 8) := Fin.ext (by show (j 1).val / 64 = 2 * p; omega)
    have el : Cert.PQ.lane (j 1) = (⟨q.val, h⟩ : Fin 64) := Fin.ext (by show (j 1).val % 64 = q.val; omega)
    rw [es, el, e0]
  · rw [dif_neg h, hyb, hcb]
    have es : Cert.PQ.sub (j 1) = (⟨2 * p + 1, by omega⟩ : Fin 8) := Fin.ext (by show (j 1).val / 64 = 2 * p + 1; omega)
    have el : Cert.PQ.lane (j 1) = (⟨q.val - 64, by omega⟩ : Fin 64) := Fin.ext (by show (j 1).val % 64 = q.val - 64; omega)
    rw [es, el, e0]

/-- A column of the code block, loaded as a `[4096, 1]` vector, read at row `r`. -/
theorem ld_codeCol (x0 : Vec Ideal S4096x8 .i32) (k : Nat) (hk : k < 8) (inb) (r : Fin 4096) :
    (View.ld x0 (Rect.unit (s := S4096x8) ![0, k] S4096x1.size inb) : IVec S4096x1 32) (ix2 r (0 : Fin 1))
      = (x0 : IVec S4096x8 32) (ix2 r (⟨k, hk⟩ : Fin 8)) := by
  show x0 _ = x0 _
  congr 1
  funext a
  apply Fin.ext
  match a with
  | ⟨0, _⟩ => show 0 + 1 * r.val = r.val; omega
  | ⟨1, _⟩ => show k + 1 * 0 = k; omega

/-- A subspace's table, loaded as a `[1, 256, 64]` slab, read at `(0, v, d)`. -/
theorem ld_slab (x1 : Vec Ideal S8x256x64 .bf16) (k : Nat) (hk : k < 8) (inb) (v : Fin 256) (d : Fin 64) :
    (View.ld x1 (Rect.unit (s := S8x256x64) ![k, 0, 0] S1x256x64.size inb) : Vec Ideal S1x256x64 .bf16) (ix3 (0 : Fin 1) v d)
      = x1 (ix3 (⟨k, hk⟩ : Fin 8) v d) := by
  show x1 _ = x1 _
  congr 1
  funext a
  apply Fin.ext
  match a with
  | ⟨0, _⟩ => show k + 1 * 0 = k; omega
  | ⟨1, _⟩ => show 0 + 1 * v.val = v.val; omega
  | ⟨2, _⟩ => show 0 + 1 * d.val = d.val; omega

/-- WHAT THE BODY LEAVES: the four stores' pieces put together are `blockOut` of the code block and the table, when
    every code of the block lies in `[0, 255]`. -/
theorem out0_2_eq (x0 : Vec Ideal S4096x8 .i32) (x1 : Vec Ideal S8x256x64 .bf16)
    (hr : ∀ (r : Fin 4096) (k : Fin 8), 0 ≤ ((x0 : IVec S4096x8 32) (ix2 r k)).toInt ∧ ((x0 : IVec S4096x8 32) (ix2 r k)).toInt ≤ 255) :
    out0_2 (F := Ideal) x0 x1 = blockOut x0 x1 := by
  funext y
  unfold out0_2
  refine View.canon_apply_of_pieces (Val := Elt Ideal) (blockOut x0 x1) _ ?_ y (cover0_2 _ _ _ _ y)
  intro pc hpc x
  simp only [List.mem_cons, List.mem_nil_iff, or_false] at hpc
  rcases hpc with rfl | rfl | rfl | rfl
  ·
    obtain ⟨r, q, rfl⟩ : ∃ (r : Fin 4096) (q : Fin 128), x = ix2 r q := ⟨x 0, x 1, eq_ix2 (n0 := 4096) (n1 := 128) x⟩
    show k0_pay1 (F := Ideal) (k0_pay2 (F := Ideal)) _ _ _ _ (ix2 r q) = _
    rw [pay1_apply _ _ _ _ r q (by rw [ld_codeCol x0 6 (by omega)]; exact hr _ _) (by rw [ld_codeCol x0 7 (by omega)]; exact hr _ _)]
    exact pairEntry_eq_blockOut x0 x1 3 (by omega) _ _ _ _ (ld_codeCol x0 6 (by omega) _) (ld_codeCol x0 7 (by omega) _)
      (ld_slab x1 6 (by omega) _) (ld_slab x1 7 (by omega) _) r q _ (by show 0 + 1 * r.val = r.val; omega) (by show 384 + 1 * q.val = 128 * 3 + q.val; omega)
  ·
    obtain ⟨r, q, rfl⟩ : ∃ (r : Fin 4096) (q : Fin 128), x = ix2 r q := ⟨x 0, x 1, eq_ix2 (n0 := 4096) (n1 := 128) x⟩
    show k0_pay7 (F := Ideal) (k0_pay2 (F := Ideal)) _ _ _ _ (ix2 r q) = _
    rw [pay7_apply _ _ _ _ r q (by rw [ld_codeCol x0 4 (by omega)]; exact hr _ _) (by rw [ld_codeCol x0 5 (by omega)]; exact hr _ _)]
    exact pairEntry_eq_blockOut x0 x1 2 (by omega) _ _ _ _ (ld_codeCol x0 4 (by omega) _) (ld_codeCol x0 5 (by omega) _)
      (ld_slab x1 4 (by omega) _) (ld_slab x1 5 (by omega) _) r q _ (by show 0 + 1 * r.val = r.val; omega) (by show 256 + 1 * q.val = 128 * 2 + q.val; omega)
  ·
    obtain ⟨r, q, rfl⟩ : ∃ (r : Fin 4096) (q : Fin 128), x = ix2 r q := ⟨x 0, x 1, eq_ix2 (n0 := 4096) (n1 := 128) x⟩
    show k0_pay6 (F := Ideal) (k0_pay4 (F := Ideal) _) (k0_pay5 (F := Ideal) _) _ _ (ix2 r q) = _
    rw [pay6_apply _ _ _ _ r q (by rw [ld_codeCol x0 2 (by omega)]; exact hr _ _) (by rw [ld_codeCol x0 3 (by omega)]; exact hr _ _)]
    exact pairEntry_eq_blockOut x0 x1 1 (by omega) _ _ _ _ (ld_codeCol x0 2 (by omega) _) (ld_codeCol x0 3 (by omega) _)
      (ld_slab x1 2 (by omega) _) (ld_slab x1 3 (by omega) _) r q _ (by show 0 + 1 * r.val = r.val; omega) (by show 128 + 1 * q.val = 128 * 1 + q.val; omega)
  ·
    obtain ⟨r, q, rfl⟩ : ∃ (r : Fin 4096) (q : Fin 128), x = ix2 r q := ⟨x 0, x 1, eq_ix2 (n0 := 4096) (n1 := 128) x⟩
    show k0_pay3 (F := Ideal) _ _ _ _ (ix2 r q) = _
    rw [pay3_apply _ _ _ _ r q (by rw [ld_codeCol x0 0 (by omega)]; exact hr _ _) (by rw [ld_codeCol x0 1 (by omega)]; exact hr _ _)]
    exact pairEntry_eq_blockOut x0 x1 0 (by omega) _ _ _ _ (ld_codeCol x0 0 (by omega) _) (ld_codeCol x0 1 (by omega) _)
      (ld_slab x1 0 (by omega) _) (ld_slab x1 1 (by omega) _) r q _ (by show 0 + 1 * r.val = r.val; omega) (by show 0 + 1 * q.val = 128 * 0 + q.val; omega)

end Cert.KernelIdeal.KValue

end
-- ==== Proof.KernelRun.lean ====
import proofs.«401532_j12575664243197_3_alg».proof.Proof.Gen.KernelIdeal.Frame
import proofs.«401532_j12575664243197_3_alg».proof.Proof.Spec
import proofs.«401532_j12575664243197_3_alg».proof.Proof.KernelHost
import proofs.«401532_j12575664243197_3_alg».proof.Proof.KernelBlock
import Idealize.ShloMosaic.Lib.StableHlo.Run
import Idealize.ShloMosaic.Lib.ValueIdx
import Idealize.ShloMosaic.Lib.Pipeline.Value

/-! # The kernel's run, read

Grid point `t` works on tokens `4096 t … 4096 t + 4095` of the flat axis: its code block is those rows of the launched
codes, its centroid block the whole launched table, and it writes those rows of the `[131072, 512]` result. The 32 points'
blocks tile the result, so the result array ends at one function of the arguments: row `T`, column `e` is the decoded
embedding of token `(T / 512, T % 512)` at column `e`. The reshape after the region reads it back as `[256, 512, 512]`. -/

noncomputable section

namespace Cert.KernelIdeal.KValue

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The token ids, the code table and the centroids core `c` is launched with. -/
abbrev idsOf (c : Dev nD) : IVec S256x512 32 := m ((c : Thread nD τ).loc main_arg0)
abbrev tblOf (c : Dev nD) : IVec S1000000x8 32 := m ((c : Thread nD τ).loc main_arg1)
abbrev centOf (c : Dev nD) : FVec Ideal S8x256x64 .f32 := m ((c : Thread nD τ).loc main_arg2)

/-- The result array before the final reshape: row `T` is the decoded embedding of token `(T / 512, T % 512)`. -/
def flatOut (ids : IVec S256x512 32) (tbl : IVec S1000000x8 32) (cent : FVec Ideal S8x256x64 .f32) : S131072x512.Idx → EReal :=
  fun i => Cert.PQ.decode ids tbl cent
    (ix3 (⟨(i 0).val / 512, by have h : (i 0).val < 131072 := (i 0).isLt; omega⟩ : Fin 256) (⟨(i 0).val % 512, by omega⟩ : Fin 512) (i 1))

/-- The printed index maps over the grid: point `t` takes row block `t` of the codes and of the result, and the one
    block of the centroid table. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The code block at point `t`: rows `4096 t …` of the launched codes. -/
theorem iblk0_apply (c : Dev nD) (t : Fin cfg0.N) (r : Fin 4096) (k : Fin 8) (T : Fin 131072) (hT : T.val = 4096 * t.val + r.val) :
    (iblk m c 0 t : IVec S4096x8 32) (ix2 r k) = launchedCodes (idsOf m c) (tblOf m c) (ix2 T k) := by
  obtain ⟨e0, e1, -⟩ := idx_facts t
  unfold iblk
  rw [View.read_apply]
  show V m c main_v13 _ = _
  rw [V_codes]
  congr 1
  funext a
  apply Fin.ext
  match a with
  | ⟨0, _⟩ => show win0_0.index t (0 : Fin 2) * 4096 + 1 * r.val = T.val; rw [e0, hT]; omega
  | ⟨1, _⟩ => show win0_0.index t (1 : Fin 2) * 8 + 1 * k.val = k.val; rw [e1]; omega

/-- The centroid block at every point: the whole launched table. -/
theorem iblk1_apply (c : Dev nD) (t : Fin cfg0.N) (k : Fin 8) (v : Fin 256) (d : Fin 64) :
    (iblk m c 1 t : S8x256x64.Idx → EReal) (ix3 k v d) = launchedCent (centOf m c) (ix3 k v d) := by
  obtain ⟨-, -, e0, e1, e2, -⟩ := idx_facts t
  unfold iblk
  rw [View.read_apply]
  show V m c main_v17 _ = _
  rw [V_cent]
  congr 1
  funext a
  apply Fin.ext
  match a with
  | ⟨0, _⟩ => show win0_1.index t (0 : Fin 3) * 8 + 1 * k.val = k.val; rw [e0]; omega
  | ⟨1, _⟩ => show win0_1.index t (1 : Fin 3) * 256 + 1 * v.val = v.val; rw [e1]; omega
  | ⟨2, _⟩ => show win0_1.index t (2 : Fin 3) * 64 + 1 * d.val = d.val; rw [e2]; omega

/-- Every launched code lies in `[0, 255]` when the table has no negative entry. -/
theorem launchedCodes_range (ids : IVec S256x512 32) (tbl : IVec S1000000x8 32) (hc : Cert.PQ.CodesNonneg tbl) (T : Fin 131072) (k : Fin 8) :
    0 ≤ (launchedCodes ids tbl (ix2 T k)).toInt ∧ (launchedCodes ids tbl (ix2 T k)).toInt ≤ 255 := by
  rw [launchedCodes_apply]
  split
  · exact ⟨by decide, by decide⟩
  · exact Cert.PQ.codeAt_range hc _ _ _

/-- THE DECODED ENTRY through the launched arrays: the launched table read at the row the launched code names is the
    specification's entry — zero at a padding token either way, and a code `0` reads a zero row either way. -/
theorem launched_entry (ids : IVec S256x512 32) (tbl : IVec S1000000x8 32) (cent : FVec Ideal S8x256x64 .f32)
    (hz : Cert.PQ.ZeroRow cent) (T : Fin 131072) (e : Fin 512) :
    launchedCent cent (ix3 (Cert.PQ.sub e) (Cert.PQ.centRow (launchedCodes ids tbl (ix2 T (Cert.PQ.sub e)))) (Cert.PQ.lane e))
      = flatOut ids tbl cent (ix2 T e) := by
  rw [launchedCent_apply, launchedCodes_apply]
  show _ = Cert.PQ.decode ids tbl cent (ix3 (⟨T.val / 512, _⟩ : Fin 256) (⟨T.val % 512, _⟩ : Fin 512) e)
  unfold Cert.PQ.decode
  show _ = if ids (ix2 (⟨T.val / 512, _⟩ : Fin 256) (⟨T.val % 512, _⟩ : Fin 512)) = 0#32 then (0 : EReal) else _
  by_cases hp : ids (ix2 (⟨T.val / 512, by omega⟩ : Fin 256) (⟨T.val % 512, by omega⟩ : Fin 512)) = 0#32
  · rw [if_pos hp, if_pos hp, if_pos (by decide)]
  · rw [if_neg hp, if_neg hp]
    by_cases hv : (Cert.PQ.centRow (Cert.PQ.codeAt ids tbl ⟨T.val / 512, by omega⟩ ⟨T.val % 512, by omega⟩ (Cert.PQ.sub e))).val = 0
    · rw [if_pos hv]
      have e0 : Cert.PQ.centRow (Cert.PQ.codeAt ids tbl ⟨T.val / 512, by omega⟩ ⟨T.val % 512, by omega⟩ (Cert.PQ.sub e)) = (0 : Fin 256) :=
        Fin.ext hv
      show (0 : EReal) = cent (ix3 (Cert.PQ.sub e) (Cert.PQ.centRow _) (Cert.PQ.lane e))
      rw [e0]
      exact (hz _ _).symm
    · rw [if_neg hv]

theorem hflush (t : Fin cfg0.N) : (cfg0.win 2).flush t = true := flush0_2 t

/-- WHAT POINT `t` WRITES BACK is block `t` of `flatOut` of the arguments. -/
theorem flushed_eq (c : Dev nD) (hz : Cert.PQ.ZeroRow (centOf m c)) (hc : Cert.PQ.CodesNonneg (tblOf m c)) (t : Fin cfg0.N) :
    (dats m 0 c).flushed 2 t
      = ((cfg0.win 2).blk t).view.read (Elt Ideal) (flatOut (idsOf m c) (tblOf m c) (centOf m c)) := by
  obtain ⟨-, -, -, -, -, e0, e1⟩ := idx_facts t
  have ht : t.val < 32 := by have h := t.isLt; have hN : cfg0.N = 32 := N_0; omega
  show (cfg0.win 2).cut (grid0.coords t) ((dats m 0 c).after 2 t) = _
  rw [after0_2, out0_2_eq _ _ (fun r k => by
    rw [iblk0_apply m c t r k ⟨4096 * t.val + r.val, by have := r.isLt; omega⟩ rfl]
    exact launchedCodes_range _ _ hc _ _)]
  funext y
  obtain ⟨r, e, rfl⟩ : ∃ (r : Fin 4096) (e : Fin 512), y = ix2 r e := ⟨y 0, y 1, eq_ix2 y⟩
  have hr : r.val < 4096 := r.isLt
  show blockOut (iblk m c 0 t) (iblk m c 1 t) (ix2 r e) = flatOut (idsOf m c) (tblOf m c) (centOf m c) (((cfg0.win 2).blk t).view.emb (ix2 r e))
  have hemb : ((cfg0.win 2).blk t).view.emb (ix2 r e) = ix2 (⟨4096 * t.val + r.val, by omega⟩ : Fin 131072) e := by
    funext a
    apply Fin.ext
    match a with
    | ⟨0, _⟩ => show win0_2.index t (0 : Fin 2) * 4096 + 1 * r.val = 4096 * t.val + r.val; rw [e0]; omega
    | ⟨1, _⟩ => show win0_2.index t (1 : Fin 2) * 512 + 1 * e.val = e.val; rw [e1]; omega
  rw [hemb, ← launched_entry _ _ _ hz]
  unfold blockOut
  show (iblk m c 1 t : S8x256x64.Idx → EReal) (ix3 (Cert.PQ.sub e) (Cert.PQ.centRow ((iblk m c 0 t : IVec S4096x8 32) (ix2 r (Cert.PQ.sub e)))) (Cert.PQ.lane e)) = _
  rw [iblk1_apply, iblk0_apply m c t r (Cert.PQ.sub e) ⟨4096 * t.val + r.val, by omega⟩ rfl]

/-- An index of the result array is in point `t`'s block iff each coordinate is in the block's range on its axis. -/
theorem mem_blk (t : Fin cfg0.N) (i : S131072x512.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v18).slice (win0_2.rect t)).set ↔ _
  rw [View.set_slice_whole, Rect.mem_set_unit]
  exact Iff.rfl

/-- Every row of the result is in the block of the point that owns it, `T / 4096`. -/
theorem covered (i : S131072x512.Idx) : ∃ t : Fin cfg0.N, (cfg0.win 2).flush t = true ∧ i ∈ ((cfg0.win 2).blk t).view.set := by
  have hi0 : (i 0).val < 131072 := (i 0).isLt
  have hi1 : (i 1).val < 512 := (i 1).isLt
  let t : Fin cfg0.N := ⟨(i 0).val / 4096, by have hN : cfg0.N = 32 := N_0; omega⟩
  obtain ⟨-, -, -, -, -, e0, e1⟩ := idx_facts t
  refine ⟨t, hflush t, ?_⟩
  rw [mem_blk]
  intro a
  match a with
  | ⟨0, _⟩ =>
    show win0_2.index t (0 : Fin 2) * 4096 ≤ (i 0).val ∧ (i 0).val < win0_2.index t (0 : Fin 2) * 4096 + 4096
    rw [e0]; show (i 0).val / 4096 * 4096 ≤ (i 0).val ∧ (i 0).val < (i 0).val / 4096 * 4096 + 4096; omega
  | ⟨1, _⟩ =>
    show win0_2.index t (1 : Fin 2) * 512 ≤ (i 1).val ∧ (i 1).val < win0_2.index t (1 : Fin 2) * 512 + 512
    rw [e1]; omega

/-- THE RESULT ARRAY after the region: `flatOut` of the arguments. -/
theorem final (c : Dev nD) (hz : Cert.PQ.ZeroRow (centOf m c)) (hc : Cert.PQ.CodesNonneg (tblOf m c)) :
    (dats m 0 c).arrAt 2 cfg0.N = flatOut (idsOf m c) (tblOf m c) (centOf m c) :=
  (dats m 0 c).arrAt_eq_of_cover 2 (flatOut (idsOf m c) (tblOf m c) (centOf m c)) (fun t _ => flushed_eq m c hz hc t) covered

set_option maxHeartbeats 1000000 in
/-- The reshape after the region: the program's result is the decoded embeddings. -/
theorem tail_eq (c : Dev nD) (hz : Cert.PQ.ZeroRow (centOf m c)) (hc : Cert.PQ.CodesNonneg (tblOf m c)) :
    Pipeline.afterTail₀ cfgs (dats m) 0 (V0 m) [hostOps1] c main_v19 = Cert.PQ.decode (idsOf m c) (tblOf m c) (centOf m c) := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.devRef .tc main_v18) = _ from
    (Pipeline.withArrays_arr spec0 launch0.win.arr_inj c _ _ 2).trans (final m c hz hc)]
  funext i
  obtain ⟨b, s, e, rfl⟩ : ∃ (b : Fin 256) (s : Fin 512) (e : Fin 512), i = ix3 b s e := ⟨i 0, i 1, i 2, eq_ix3 i⟩
  have hb : b.val < 256 := b.isLt
  have hs : s.val < 512 := s.isLt
  show shapeCast S256x512x512 (flatOut (idsOf m c) (tblOf m c) (centOf m c)) shapeCasts_S131072x512_S256x512x512 (ix3 b s e) = _
  rw [shapeCast_apply _ shapeCasts_S131072x512_S256x512x512 (ix3 b s e) (ix2 (⟨b.val * 512 + s.val, by omega⟩ : Fin 131072) e) (by
    rw [Shape.rowMajor_val_two, Shape.rowMajor_val_three]; rfl)]
  unfold flatOut
  congr 1
  funext a
  apply Fin.ext
  match a with
  | ⟨0, _⟩ => show (b.val * 512 + s.val) / 512 = b.val; omega
  | ⟨1, _⟩ => show (b.val * 512 + s.val) % 512 = s.val; omega
  | ⟨2, _⟩ => rfl

/-- THE RUN, READ: every weakly fair execution ends with the result at the decoded embeddings of the arguments and the
    arguments unchanged, when row `0` of the centroids is zero and no code is negative. -/
theorem run (hz : ∀ c, Cert.PQ.ZeroRow (centOf m c)) (hc : ∀ c, Cert.PQ.CodesNonneg (tblOf m c)) :
    θ_run defs (onTc (τ := τ) (main (F := Ideal))) ⟨m, fun _ => 0, ρ⟩ fun r => ∀ c : Dev nD,
      r.2.mem ((c.tc : Thread nD τ).loc main_v19) = Cert.PQ.decode (idsOf m c) (tblOf m c) (centOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (tail_eq m c (hz c) (hc c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefSide.lean ====
import proofs.«401532_j12575664243197_3_alg».proof.Proof.Gen.ReferenceIdeal.Read
import proofs.«401532_j12575664243197_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen

/-! # The reference program computes the decoded embeddings

The reference gathers each token's table row, clamps its codes above by 255, pairs every code with its subspace's number
into an index vector `(subspace, code)`, gathers the centroid rows those vectors name, lays the eight rows of a token
side by side, and puts zero at padding tokens. Read index by index this is the specification's `decode`:

* the token id wrapped once by the table's length and clamped into the table is the specification's `rowOf`;
* the subspace word `k < 8` is not negative, so wrapping it by 8 leaves it, and clamped into `[0, 7]` it is `k`;
* a code lies in `[0, 255]` when no table entry is negative, so wrapping it by 256 leaves it, and clamped into
  `[0, 255]` it is the specification's `centRow`;
* column `e` of a token's 512 numbers is entry `e % 64` of the row gathered for subspace `e / 64`;
* the value put at padding tokens is the real number zero. -/

/-! ## The two gathers, read at an index

`Host.gather d x idx j = x (d.operandIdx j idx)`, and on each operand axis the operand index is the clamped start plus the
batching coordinate plus the offset coordinate. Neither gather has batching axes. Each is worked out axis by axis at its
literal record. -/

section Gathers
variable {α : Type}

/-- The table gather on the row axis: the start index of token `(b, s)` read signed and clamped into `[0, 999999]`;
    the axis is collapsed, so no offset is added. -/
theorem rows_axis0 (idx : IVec S256x512x1 32) (b : Fin 256) (s : Fin 512) (k : Fin 8) :
    gather_S1000000x8_S256x512x1_S256x512x8_2_0_n_n_0_2_18.start (ix3 b s k) idx (0 : Fin 2)
      + gather_S1000000x8_S256x512x1_S256x512x8_2_0_n_n_0_2_18.batchCoord (ix3 b s k) (0 : Fin 2)
      + gather_S1000000x8_S256x512x1_S256x512x8_2_0_n_n_0_2_18.offCoord (ix3 b s k) (0 : Fin 2)
      = min (idx (ix3 b s (0 : Fin 1))).toInt.toNat 999999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S1000000x8_S256x512x1_S256x512x8_2_0_n_n_0_2_18.startIndexMap from List.mem_singleton.mpr rfl)]
  have hsi : gather_S1000000x8_S256x512x1_S256x512x8_2_0_n_n_0_2_18.siIdx (ix3 b s k)
      ⟨List.idxOf (0 : Fin 2) gather_S1000000x8_S256x512x1_S256x512x8_2_0_n_n_0_2_18.startIndexMap,
        List.idxOf_lt_length_iff.2 (List.mem_singleton.mpr rfl)⟩ = ix3 b s (0 : Fin 1) := by
    funext e; refine Fin.ext ?_
    match e with
    | ⟨0, _⟩ => rfl
    | ⟨1, _⟩ => rfl
    | ⟨2, _⟩ => rfl
  rw [hsi]
  rfl

/-- The table gather on the column axis: the result's own last coordinate `k` (the one offset axis reads this axis
    whole), with start `0` since the start index map does not name the axis. -/
theorem rows_axis1 (idx : IVec S256x512x1 32) (b : Fin 256) (s : Fin 512) (k : Fin 8) :
    gather_S1000000x8_S256x512x1_S256x512x8_2_0_n_n_0_2_18.start (ix3 b s k) idx (1 : Fin 2)
      + gather_S1000000x8_S256x512x1_S256x512x8_2_0_n_n_0_2_18.batchCoord (ix3 b s k) (1 : Fin 2)
      + gather_S1000000x8_S256x512x1_S256x512x8_2_0_n_n_0_2_18.offCoord (ix3 b s k) (1 : Fin 2)
      = k.val := by
  have h10 : (1 : Fin 2) ∉ [(0 : Fin 2)] := by decide
  have hst : gather_S1000000x8_S256x512x1_S256x512x8_2_0_n_n_0_2_18.start (ix3 b s k) idx (1 : Fin 2) = 0 := by
    unfold GatherDims.start
    rw [dif_neg (show ¬ (1 : Fin 2) ∈ gather_S1000000x8_S256x512x1_S256x512x8_2_0_n_n_0_2_18.startIndexMap from h10)]
  have hoff : gather_S1000000x8_S256x512x1_S256x512x8_2_0_n_n_0_2_18.offCoord (ix3 b s k) (1 : Fin 2) = k.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE TABLE GATHER AT `(b, s, k)`: entry `k` of table row `r`, where `r` is the start index of token `(b, s)` read
    signed and clamped into the table. -/
theorem gather_rows_apply (x : S1000000x8.Idx → α) (idx : IVec S256x512x1 32) (b : Fin 256) (s : Fin 512) (k : Fin 8)
    (r : Fin 1000000) (hr : r.val = min (idx (ix3 b s (0 : Fin 1))).toInt.toNat 999999) :
    Host.gather gather_S1000000x8_S256x512x1_S256x512x8_2_0_n_n_0_2_18 x idx (ix3 b s k) = x (ix2 r k) := by
  unfold Host.gather
  congr 1
  funext a
  refine Fin.ext ?_
  match a with
  | ⟨0, _⟩ => exact (rows_axis0 idx b s k).trans hr.symm
  | ⟨1, _⟩ => exact rows_axis1 idx b s k

/-- The index of the centroid gather's start indices at which result index `(b, s, k, l)` reads component `c` of its
    index vector: `(b, s, k, c)`. -/
theorem cent_siIdx (b : Fin 256) (s : Fin 512) (k : Fin 8) (l : Fin 64) (c : Fin 2)
    (hc : c.val < gather_S8x256x64_S256x512x8x2_S256x512x8x64_3_01_n_n_01_3_1164.startIndexMap.length) :
    gather_S8x256x64_S256x512x8x2_S256x512x8x64_3_01_n_n_01_3_1164.siIdx (ix4 b s k l) ⟨c.val, hc⟩ = ix4 b s k c := by
  funext e; refine Fin.ext ?_
  match e with
  | ⟨0, _⟩ => rfl
  | ⟨1, _⟩ => rfl
  | ⟨2, _⟩ => rfl
  | ⟨3, _⟩ => rfl

/-- The centroid gather on the subspace axis: component `0` of the index vector of `(b, s, k)` read signed and
    clamped into `[0, 7]`; the axis is collapsed. -/
theorem cent_axis0 (idx : IVec S256x512x8x2 32) (b : Fin 256) (s : Fin 512) (k : Fin 8) (l : Fin 64) :
    gather_S8x256x64_S256x512x8x2_S256x512x8x64_3_01_n_n_01_3_1164.start (ix4 b s k l) idx (0 : Fin 3)
      + gather_S8x256x64_S256x512x8x2_S256x512x8x64_3_01_n_n_01_3_1164.batchCoord (ix4 b s k l) (0 : Fin 3)
      + gather_S8x256x64_S256x512x8x2_S256x512x8x64_3_01_n_n_01_3_1164.offCoord (ix4 b s k l) (0 : Fin 3)
      = min (idx (ix4 b s k (0 : Fin 2))).toInt.toNat 7 := by
  have hm : (0 : Fin 3) ∈ gather_S8x256x64_S256x512x8x2_S256x512x8x64_3_01_n_n_01_3_1164.startIndexMap := by
    show (0 : Fin 3) ∈ [(0 : Fin 3), 1]; decide
  rw [GatherDims.batchCoord_eq_zero _ _ _ List.not_mem_nil,
    GatherDims.offCoord_eq_zero _ _ _ (fun h => ((GatherDims.mem_sKept _ _).mp h).1
      (show (0 : Fin 3) ∈ [(0 : Fin 3), 1] by decide))]
  simp only [Nat.add_zero]
  unfold GatherDims.start
  rw [dif_pos hm]
  rw [show (⟨List.idxOf (0 : Fin 3) gather_S8x256x64_S256x512x8x2_S256x512x8x64_3_01_n_n_01_3_1164.startIndexMap, List.idxOf_lt_length_iff.2 hm⟩ :
      Fin gather_S8x256x64_S256x512x8x2_S256x512x8x64_3_01_n_n_01_3_1164.startIndexMap.length) = ⟨(0 : Fin 2).val, by show 0 < 2; omega⟩ from rfl]
  rw [cent_siIdx b s k l (0 : Fin 2)]
  rfl

/-- The centroid gather on the centroid axis: component `1` of the index vector of `(b, s, k)` read signed and
    clamped into `[0, 255]`; the axis is collapsed. -/
theorem cent_axis1 (idx : IVec S256x512x8x2 32) (b : Fin 256) (s : Fin 512) (k : Fin 8) (l : Fin 64) :
    gather_S8x256x64_S256x512x8x2_S256x512x8x64_3_01_n_n_01_3_1164.start (ix4 b s k l) idx (1 : Fin 3)
      + gather_S8x256x64_S256x512x8x2_S256x512x8x64_3_01_n_n_01_3_1164.batchCoord (ix4 b s k l) (1 : Fin 3)
      + gather_S8x256x64_S256x512x8x2_S256x512x8x64_3_01_n_n_01_3_1164.offCoord (ix4 b s k l) (1 : Fin 3)
      = min (idx (ix4 b s k (1 : Fin 2))).toInt.toNat 255 := by
  have hm : (1 : Fin 3) ∈ gather_S8x256x64_S256x512x8x2_S256x512x8x64_3_01_n_n_01_3_1164.startIndexMap := by
    show (1 : Fin 3) ∈ [(0 : Fin 3), 1]; decide
  rw [GatherDims.batchCoord_eq_zero _ _ _ List.not_mem_nil,
    GatherDims.offCoord_eq_zero _ _ _ (fun h => ((GatherDims.mem_sKept _ _).mp h).1
      (show (1 : Fin 3) ∈ [(0 : Fin 3), 1] by decide))]
  simp only [Nat.add_zero]
  unfold GatherDims.start
  rw [dif_pos hm]
  rw [show (⟨List.idxOf (1 : Fin 3) gather_S8x256x64_S256x512x8x2_S256x512x8x64_3_01_n_n_01_3_1164.startIndexMap, List.idxOf_lt_length_iff.2 hm⟩ :
      Fin gather_S8x256x64_S256x512x8x2_S256x512x8x64_3_01_n_n_01_3_1164.startIndexMap.length) = ⟨(1 : Fin 2).val, by show 1 < 2; omega⟩ from rfl]
  rw [cent_siIdx b s k l (1 : Fin 2)]
  rfl

/-- The centroid gather on the lane axis: the result's own last coordinate `l` (the one offset axis reads this axis
    whole), with start `0` since the start index map does not name the axis. -/
theorem cent_axis2 (idx : IVec S256x512x8x2 32) (b : Fin 256) (s : Fin 512) (k : Fin 8) (l : Fin 64) :
    gather_S8x256x64_S256x512x8x2_S256x512x8x64_3_01_n_n_01_3_1164.start (ix4 b s k l) idx (2 : Fin 3)
      + gather_S8x256x64_S256x512x8x2_S256x512x8x64_3_01_n_n_01_3_1164.batchCoord (ix4 b s k l) (2 : Fin 3)
      + gather_S8x256x64_S256x512x8x2_S256x512x8x64_3_01_n_n_01_3_1164.offCoord (ix4 b s k l) (2 : Fin 3)
      = l.val := by
  have h2 : (2 : Fin 3) ∉ [(0 : Fin 3), 1] := by decide
  have hst : gather_S8x256x64_S256x512x8x2_S256x512x8x64_3_01_n_n_01_3_1164.start (ix4 b s k l) idx (2 : Fin 3) = 0 := by
    unfold GatherDims.start
    rw [dif_neg (show ¬ (2 : Fin 3) ∈ gather_S8x256x64_S256x512x8x2_S256x512x8x64_3_01_n_n_01_3_1164.startIndexMap from h2)]
  have hoff : gather_S8x256x64_S256x512x8x2_S256x512x8x64_3_01_n_n_01_3_1164.offCoord (ix4 b s k l) (2 : Fin 3) = l.val := by
    unfold GatherDims.offCoord
    rw [dif_pos ((GatherDims.mem_sKept _ _).mpr ⟨h2, List.not_mem_nil⟩)]
    rfl
  rw [GatherDims.batchCoord_eq_zero _ _ _ List.not_mem_nil, hst, hoff, Nat.add_zero, Nat.zero_add]

/-- THE CENTROID GATHER AT `(b, s, k, l)`: entry `l` of centroid row `(r₀, r₁)`, where `r₀` is component `0` of the
    index vector of `(b, s, k)` (the subspace) clamped into `[0, 7]` and `r₁` its component `1` (the code) clamped into
    `[0, 255]`, both read signed. -/
theorem gather_cent_apply (x : S8x256x64.Idx → α) (idx : IVec S256x512x8x2 32)
    (b : Fin 256) (s : Fin 512) (k : Fin 8) (l : Fin 64)
    (r₀ : Fin 8) (h₀ : r₀.val = min (idx (ix4 b s k (0 : Fin 2))).toInt.toNat 7)
    (r₁ : Fin 256) (h₁ : r₁.val = min (idx (ix4 b s k (1 : Fin 2))).toInt.toNat 255) :
    Host.gather gather_S8x256x64_S256x512x8x2_S256x512x8x64_3_01_n_n_01_3_1164 x idx (ix4 b s k l) = x (ix3 r₀ r₁ l) := by
  unfold Host.gather
  congr 1
  funext a
  refine Fin.ext ?_
  match a with
  | ⟨0, _⟩ => exact (cent_axis0 idx b s k l).trans h₀.symm
  | ⟨1, _⟩ => exact (cent_axis1 idx b s k l).trans h₁.symm
  | ⟨2, _⟩ => exact cent_axis2 idx b s k l

/-- The index vectors' two words side by side: at component `0` the concatenation reads its first piece. -/
theorem pair_word0 (x₁ x₂ : S256x512x8x1.Idx → α) (b : Fin 256) (s : Fin 512) (k : Fin 8) :
    concatenate S256x512x8x2 3 [⟨S256x512x8x1, x₁⟩, ⟨S256x512x8x1, x₂⟩]
        concatenates_S256x512x8x1_S256x512x8x1_S256x512x8x2_d3 (ix4 b s k (0 : Fin 2))
      = x₁ (ix4 b s k (0 : Fin 1)) :=
  concatenate_pair_apply_left (s₁ := S256x512x8x1) (s₂ := S256x512x8x1) (3 : Fin 4) x₁ x₂ _ (ix4 b s k (0 : Fin 2))
    (rfl : (4 : Nat) = 4) (ix4 b s k (0 : Fin 1))
    (fun a => by match a with | ⟨0, _⟩ => rfl | ⟨1, _⟩ => rfl | ⟨2, _⟩ => rfl | ⟨3, _⟩ => rfl)

/-- At component `1` the concatenation reads its second piece (the first piece is one word long). -/
theorem pair_word1 (x₁ x₂ : S256x512x8x1.Idx → α) (b : Fin 256) (s : Fin 512) (k : Fin 8) :
    concatenate S256x512x8x2 3 [⟨S256x512x8x1, x₁⟩, ⟨S256x512x8x1, x₂⟩]
        concatenates_S256x512x8x1_S256x512x8x1_S256x512x8x2_d3 (ix4 b s k (1 : Fin 2))
      = x₂ (ix4 b s k (0 : Fin 1)) :=
  concatenate_pair_apply_right (s₁ := S256x512x8x1) (s₂ := S256x512x8x1) (3 : Fin 4) x₁ x₂ _ (ix4 b s k (1 : Fin 2))
    (rfl : (4 : Nat) = 4) (rfl : (4 : Nat) = 4) (ix4 b s k (0 : Fin 1))
    (fun a ha => by
      match a with
      | ⟨0, _⟩ => rfl
      | ⟨1, _⟩ => rfl
      | ⟨2, _⟩ => rfl
      | ⟨3, _⟩ => exact absurd rfl ha)
    rfl

end Gathers

/-! ## The reference's stages, read at an index -/

/-- The token id of `(b, s)`, wrapped once by the table's length when negative. -/
theorem wrapped_id (ids : IVec S256x512 32) (b : Fin 256) (s : Fin 512) :
    Read.val_main_v4 (F := Ideal) ids (ix2 b s) = Cert.PQ.wrapWord 1000000#32 (ids (ix2 b s)) := by
  rw [Read.val_main_v4_apply, Read.val_main_v1_apply, Read.val_main_v3_apply, Read.val_main_v0_apply,
    Read.val_main_c_apply, Read.val_main_v2_apply, Read.val_main_c_0_apply]
  rfl

/-- The gathered table row of token `(b, s)` at subspace `k`: the table's entry in the row the token id names (the
    wrapped id clamped into the table). -/
theorem table_row (ids : IVec S256x512 32) (tbl : IVec S1000000x8 32) (b : Fin 256) (s : Fin 512) (k : Fin 8) :
    Read.val_main_v6 (F := Ideal) ids tbl (ix3 b s k) = tbl (ix2 (Cert.PQ.rowOf (ids (ix2 b s))) k) := by
  have e : Read.idx_main_v5 (ix3 b s (0 : Fin 1)) = ix2 b s := by
    funext a; match a with | ⟨0, _⟩ => rfl | ⟨1, _⟩ => rfl
  unfold Read.val_main_v6
  refine gather_rows_apply tbl _ b s k (Cert.PQ.rowOf (ids (ix2 b s))) ?_
  rw [Read.val_main_v5_apply, e, wrapped_id]
  rfl

/-- The code of token `(b, s)` for subspace `k`: the gathered entry clamped above by 255. -/
theorem code_word (ids : IVec S256x512 32) (tbl : IVec S1000000x8 32) (b : Fin 256) (s : Fin 512) (k : Fin 8) :
    Read.val_main_v8 (F := Ideal) ids tbl (ix3 b s k) = Cert.PQ.codeAt ids tbl b s k := by
  rw [Read.val_main_v8_apply, table_row, Read.val_main_v7_apply, Read.val_main_c_1_apply]
  rfl

/-- A word that is not negative as a signed integer does not compare below zero. -/
theorem slt_zero_of_nonneg (v : BitVec 32) (h : 0 ≤ v.toInt) : IntOp.cmpi .slt v 0#32 = 0#1 := by
  have hs : v.slt 0#32 = false := by
    rw [Bool.eq_false_iff]
    intro h'
    rw [BitVec.slt_iff_toInt_lt] at h'
    have : (0#32 : BitVec 32).toInt = 0 := by decide
    omega
  show BitVec.ofBool (v.slt 0#32) = 0#1
  rw [hs]
  rfl

/-- The code is never negative (no table entry is), so wrapping it by 256 leaves it as it is. -/
theorem code_wrapped (ids : IVec S256x512 32) (tbl : IVec S1000000x8 32) (hc : Cert.PQ.CodesNonneg tbl)
    (b : Fin 256) (s : Fin 512) (k : Fin 8) :
    Read.val_main_v20 (F := Ideal) ids tbl (ix3 b s k) = Cert.PQ.codeAt ids tbl b s k := by
  rw [Read.val_main_v20_apply, Read.val_main_v17_apply, code_word, Read.val_main_v16_apply, Read.val_main_c_4_apply,
    slt_zero_of_nonneg _ (Cert.PQ.codeAt_range hc b s k).1, select_zero]

/-- The subspace word `k` (an iota over the eight subspaces) is never negative, so wrapping it by 8 leaves it. -/
theorem sub_word (k : Fin 8) :
    Read.val_main_v15 (F := Ideal) (ix3 (0 : Fin 1) (0 : Fin 1) k) = BitVec.ofNat 32 k.val := by
  rw [Read.val_main_v15_apply, Read.val_main_v12_apply, Read.val_main_v10_apply, Read.val_main_v9_apply,
    Read.val_main_v11_apply, Read.val_main_c_2_apply]
  have e : ((Read.idx_main_v10 (ix3 (0 : Fin 1) (0 : Fin 1) k)) 0).val = k.val := rfl
  rw [e]
  have hz : IntOp.cmpi .slt (BitVec.ofNat 32 k.val) 0#32 = 0#1 := by revert k; decide
  rw [hz, select_zero]

/-- Component `0` of the index vector of `(b, s, k)`: the subspace word `k`. -/
theorem index_word0 (ids : IVec S256x512 32) (tbl : IVec S1000000x8 32) (b : Fin 256) (s : Fin 512) (k : Fin 8) :
    Read.val_main_v24 (F := Ideal) ids tbl (ix4 b s k (0 : Fin 2)) = BitVec.ofNat 32 k.val := by
  unfold Read.val_main_v24
  rw [pair_word0, Read.val_main_v22_apply]
  have e1 : Read.idx_main_v22 (ix4 b s k (0 : Fin 1)) = ix3 b s k := by
    funext a; match a with | ⟨0, _⟩ => rfl | ⟨1, _⟩ => rfl | ⟨2, _⟩ => rfl
  rw [e1, Read.val_main_v21_apply]
  have e2 : Read.idx_main_v21 (ix3 b s k) = ix3 (0 : Fin 1) (0 : Fin 1) k := by
    funext a; match a with | ⟨0, _⟩ => rfl | ⟨1, _⟩ => rfl | ⟨2, _⟩ => rfl
  rw [e2, sub_word]

/-- Component `1` of the index vector of `(b, s, k)`: the token's code for subspace `k`. -/
theorem index_word1 (ids : IVec S256x512 32) (tbl : IVec S1000000x8 32) (hc : Cert.PQ.CodesNonneg tbl)
    (b : Fin 256) (s : Fin 512) (k : Fin 8) :
    Read.val_main_v24 (F := Ideal) ids tbl (ix4 b s k (1 : Fin 2)) = Cert.PQ.codeAt ids tbl b s k := by
  unfold Read.val_main_v24
  rw [pair_word1, Read.val_main_v23_apply]
  have e1 : Read.idx_main_v23 (ix4 b s k (0 : Fin 1)) = ix3 b s k := by
    funext a; match a with | ⟨0, _⟩ => rfl | ⟨1, _⟩ => rfl | ⟨2, _⟩ => rfl
  rw [e1, code_wrapped ids tbl hc]

/-- The gathered centroid entry `(b, s, k, l)`: entry `l` of subspace `k`'s centroid row named by the token's code.
    The subspace word `k < 8` clamped into `[0, 7]` is `k`; the code clamped into `[0, 255]` is the row the
    specification reads. -/
theorem centroid_read (ids : IVec S256x512 32) (tbl : IVec S1000000x8 32) (cent : FVec Ideal S8x256x64 .f32)
    (hc : Cert.PQ.CodesNonneg tbl) (b : Fin 256) (s : Fin 512) (k : Fin 8) (l : Fin 64) :
    Read.val_main_v25 (F := Ideal) ids tbl cent (ix4 b s k l)
      = cent (ix3 k (Cert.PQ.centRow (Cert.PQ.codeAt ids tbl b s k)) l) := by
  unfold Read.val_main_v25
  refine gather_cent_apply cent _ b s k l k ?_ (Cert.PQ.centRow (Cert.PQ.codeAt ids tbl b s k)) ?_
  · rw [index_word0]
    revert k
    decide
  · rw [index_word1 ids tbl hc]
    rfl

/-- Column `e` of the reshaped embeddings is entry `(e / 64, e % 64)` of the gathered centroid rows. -/
theorem reshaped_read (ids : IVec S256x512 32) (tbl : IVec S1000000x8 32) (cent : FVec Ideal S8x256x64 .f32)
    (b : Fin 256) (s : Fin 512) (e : Fin 512) :
    Read.val_main_v26 (F := Ideal) ids tbl cent (ix3 b s e)
      = Read.val_main_v25 (F := Ideal) ids tbl cent (ix4 b s (Cert.PQ.sub e) (Cert.PQ.lane e)) := by
  rw [Read.val_main_v26_apply]
  congr 1
  funext a
  refine Fin.ext ?_
  have hb := b.isLt
  have hs := s.isLt
  have he := e.isLt
  match a with
  | ⟨0, _⟩ => show ((b.val * 512 + s.val) * 512 + e.val) / 262144 = b.val; omega
  | ⟨1, _⟩ => show ((b.val * 512 + s.val) * 512 + e.val) / 512 % 512 = s.val; omega
  | ⟨2, _⟩ => show ((b.val * 512 + s.val) * 512 + e.val) / 64 % 8 = e.val / 64; omega
  | ⟨3, _⟩ => show ((b.val * 512 + s.val) * 512 + e.val) % 64 = e.val % 64; omega

/-- The pad mask at `(b, s, e)`: whether the token id is the padding id `0`. -/
theorem pad_mask (ids : IVec S256x512 32) (b : Fin 256) (s : Fin 512) (e : Fin 512) :
    Read.val_main_call0_v1 (F := Ideal) ids (ix3 b s e) = IntOp.cmpi .eq (ids (ix2 b s)) 0#32 := by
  rw [Read.val_main_call0_v1_apply, Read.val_main_v29_apply, Read.val_main_v28_apply, Read.val_main_v27_apply,
    Read.val_main_c_6_apply]
  have e1 : Read.idx_main_v29 (Read.idx_main_call0_v1 (ix3 b s e)) = ix2 b s := by
    funext a; match a with | ⟨0, _⟩ => rfl | ⟨1, _⟩ => rfl
  rw [e1]

/-- The value put at padding tokens is zero. -/
theorem pad_value (i : S256x512x512.Idx) : Read.val_main_call0_v2 (F := Ideal) i = 0 := by
  rw [Read.val_main_call0_v2_apply, Read.val_main_call0_v0_apply, Read.val_main_cst_apply]
  exact Ideal.ofBits_zero_f32

/-- THE REFERENCE'S RESULT is the decoded embeddings of its arguments, when no code in the table is negative. -/
theorem val_eq_decode (ids : IVec S256x512 32) (tbl : IVec S1000000x8 32) (cent : FVec Ideal S8x256x64 .f32)
    (hc : Cert.PQ.CodesNonneg tbl) :
    Cert.ReferenceIdeal.Read.val_main_v30 (F := Ideal) ids tbl cent = Cert.PQ.decode ids tbl cent := by
  funext i
  obtain ⟨b, s, e, rfl⟩ : ∃ (b : Fin 256) (s : Fin 512) (e : Fin 512), i = ix3 b s e := ⟨i 0, i 1, i 2, eq_ix3 i⟩
  rw [Read.val_main_v30_apply, pad_mask, pad_value, reshaped_read, centroid_read ids tbl cent hc]
  show Scalar.select (IntOp.cmpi .eq (ids (ix2 b s)) 0#32) 0 _ = if ids (ix2 b s) = 0#32 then 0 else _
  by_cases h : ids (ix2 b s) = 0#32
  · rw [if_pos h, h]
    exact select_one _ _
  · rw [if_neg h]
    have hz : IntOp.cmpi .eq (ids (ix2 b s)) 0#32 = 0#1 := by
      show BitVec.ofBool (ids (ix2 b s) == 0#32) = 0#1
      rw [beq_eq_false_iff_ne.mpr h]
      rfl
    rw [hz, select_zero]

end Cert.ReferenceIdeal.RefValue

end
-- ==== Proof.lean ====
/- Decoding product-quantised tokens: the Pallas kernel against its jnp reference, over the extended reals.

   Both programs look each token's eight codes up in an integer table, clamp each code above by 255, and lay the eight
   centroid rows the codes name side by side; the padding token (id 0) decodes to zero. The reference reads centroid row
   `code` directly and masks the padding token at the end. The kernel instead puts code `0` at every padding token, writes
   zero over row `0` of every subspace's table, and reads a row by multiplying the table with the row's one-hot vector (a
   sum with one non-zero term: exact on the extended reals, infinities included).

   The two agree when row `0` of every subspace's table is zero (then a code `0` decodes to zero on both sides, whether the
   token is padding or not) and no code in the table is negative (then no code is wrapped by the reference, and every
   code has a one-hot vector in the kernel). Both are conjuncts of the precondition.

   The modules: `Spec` (the decoded embeddings as one function of the three inputs), `PreDecode` (the two properties
   read off the precondition), `OneHot` and `KernelBlock` (what the kernel body leaves in an output block), `HostScatter`,
   `KernelHost` (what the host prepares before the region), `KernelRun` (the blocks put together, the reshape after the
   region, the run), `RefSide` (the reference's operations read at an index). -/
import proofs.«401532_j12575664243197_3_alg».proof.Defs
import proofs.«401532_j12575664243197_3_alg».proof.Proof.Gen.Kernel
import proofs.«401532_j12575664243197_3_alg».proof.Proof.Gen.Kernel.Skeleton
import proofs.«401532_j12575664243197_3_alg».proof.Proof.Gen.Kernel.Launch
import proofs.«401532_j12575664243197_3_alg».proof.Proof.Gen.Kernel.Points
import proofs.«401532_j12575664243197_3_alg».proof.Proof.Gen.Kernel.Frame
import proofs.«401532_j12575664243197_3_alg».proof.Proof.Gen.KernelIdeal
import proofs.«401532_j12575664243197_3_alg».proof.Proof.Gen.KernelIdeal.Skeleton
import proofs.«401532_j12575664243197_3_alg».proof.Proof.Gen.KernelIdeal.Launch
import proofs.«401532_j12575664243197_3_alg».proof.Proof.Gen.KernelIdeal.Points
import proofs.«401532_j12575664243197_3_alg».proof.Proof.Gen.KernelIdeal.Frame
import proofs.«401532_j12575664243197_3_alg».proof.Proof.Gen.ReferenceIdeal
import proofs.«401532_j12575664243197_3_alg».proof.Proof.Gen.Pre_finite_inputs
import proofs.«401532_j12575664243197_3_alg».proof.Proof.Gen.ReferenceIdeal.Run
import proofs.«401532_j12575664243197_3_alg».proof.Proof.Gen.ReferenceIdeal.Read
import proofs.«401532_j12575664243197_3_alg».proof.Proof.Spec
import proofs.«401532_j12575664243197_3_alg».proof.Proof.PreDecode
import proofs.«401532_j12575664243197_3_alg».proof.Proof.KernelRun
import proofs.«401532_j12575664243197_3_alg».proof.Proof.RefSide
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the decoded embeddings of the arguments: the kernel by its run read block by block, the
    reference by its operations read at an index; the precondition gives the zero row and the non-negative codes. -/
theorem algebraic : Cert.algebraic_KernelIdeal_ReferenceIdeal := by
  intro m ρ m' ρ' hpre hagree
  have hz : ∀ c, Cert.PQ.ZeroRow (Cert.KernelIdeal.KValue.centOf m c) := fun c =>
    Cert.Pre_finite_inputs.Decode.zeroRow_of_pre _ _ _ (hpre c)
  have hc : ∀ c, Cert.PQ.CodesNonneg (Cert.KernelIdeal.KValue.tblOf m c) := fun c =>
    Cert.Pre_finite_inputs.Decode.codesNonneg_of_pre _ _ _ (hpre c)
  refine ⟨fun c => Cert.PQ.decode (Cert.KernelIdeal.KValue.idsOf m c) (Cert.KernelIdeal.KValue.tblOf m c)
    (Cert.KernelIdeal.KValue.centOf m c), Cert.KernelIdeal.KValue.run m ρ hz hc, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.val_eq_decode _ _ _ (hc c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
